-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S512x11008 : Shape := ⟨2, ![512, 11008]⟩
abbrev S32x1376 : Shape := ⟨2, ![32, 1376]⟩
abbrev S32x11008 : Shape := ⟨2, ![32, 11008]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S32x11008 : S_.BroadcastsInDim S32x11008 (![] : Fin 0 → Fin S32x11008.rank)
  reducesTo_S32x11008_S_d0_1 : S32x11008.ReducesTo [0, 1] S_

variable [Facts]

def fn {F : FTy → Type} [FloatOps F] (main_arg0 : FVec F S4x2048x4096 .f32) (main_arg1 : IVec S512x11008 32) (main_arg2 : IVec S32x1376 32) (main_arg3 : FVec F S32x11008 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S32x11008 .f32 := Host.absf main_arg3
  let main_cst_0 : FVec F S_ .f32 := constant S_ .f32 0x7F800000#32
  let main_v5 : FVec F S32x11008 .f32 := broadcastInDim S32x11008 ![] bcast_S_S32x11008 main_cst_0
  let main_v6 : IVec S32x11008 1 := cmpf .olt main_v4 main_v5
  let main_c_1 : IVec S_ 1 := constantI S_ 1 1#1
  let main_v7 : IVec S_ 1 := (fun x v => Host.reduce IntOp.andi x v reducesTo_S32x11008_S_d0_1 h_S_) main_v6 main_c_1
  let main_v8 : IVec S_ 1 := andi main_v3 main_v7
  main_v8
-- ==== Kernel.lean ====
abbrev S4x2048x4096 : Shape := ⟨3, ![4, 2048, 4096]⟩
abbrev S512x11008 : Shape := ⟨2, ![512, 11008]⟩
abbrev S32x1376 : Shape := ⟨2, ![32, 1376]⟩
abbrev S32x11008 : Shape := ⟨2, ![32, 11008]⟩
abbrev S8192x4096 : Shape := ⟨2, ![8192, 4096]⟩
abbrev S8 : Shape := ⟨1, ![8]⟩
abbrev S_ : Shape := ⟨0, ![]⟩
abbrev S32x1376x1 : Shape := ⟨3, ![32, 1376, 1]⟩
abbrev S1x1x8 : Shape := ⟨3, ![1, 1, 8]⟩
abbrev S32x1376x8 : Shape := ⟨3, ![32, 1376, 8]⟩
abbrev S8192x11008 : Shape := ⟨2, ![8192, 11008]⟩
abbrev S2048x4096 : Shape := ⟨2, ![2048, 4096]⟩
abbrev S512x256 : Shape := ⟨2, ![512, 256]⟩
abbrev S32x256 : Shape := ⟨2, ![32, 256]⟩
abbrev S2048x256 : Shape := ⟨2, ![2048, 256]⟩
abbrev S128x8x256 : Shape := ⟨3, ![128, 8, 256]⟩
abbrev S2048x1024 : Shape := ⟨2, ![2048, 1024]⟩
abbrev S128x256 : Shape := ⟨2, ![128, 256]⟩
abbrev S8x256 : Shape := ⟨2, ![8, 256]⟩
abbrev S128x1x256 : Shape := ⟨3, ![128, 1, 256]⟩
abbrev S1024x256 : Shape := ⟨2, ![1024, 256]⟩
abbrev S8x128x256 : Shape := ⟨3, ![8, 128, 256]⟩
abbrev S8x1x256 : Shape := ⟨3, ![8, 1, 256]⟩
abbrev S4x2048x11008 : Shape := ⟨3, ![4, 2048, 11008]⟩

abbrev nBuf : Space → Nat
  | .hbm => 24
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S512x11008, .i32⟩
  | .hbm, ⟨2, _⟩ => ⟨S32x1376, .i32⟩
  | .hbm, ⟨3, _⟩ => ⟨S32x11008, .f32⟩
  | .hbm, ⟨4, _⟩ => ⟨S8192x4096, .f32⟩
  | .hbm, ⟨5, _⟩ => ⟨S8192x4096, .bf16⟩
  | .hbm, ⟨6, _⟩ => ⟨S8, .i32⟩
  | .hbm, ⟨7, _⟩ => ⟨S_, .i32⟩
  | .hbm, ⟨8, _⟩ => ⟨S8, .i32⟩
  | .hbm, ⟨9, _⟩ => ⟨S8, .i32⟩
  | .hbm, ⟨10, _⟩ => ⟨S32x1376x1, .i32⟩
  | .hbm, ⟨11, _⟩ => ⟨S1x1x8, .i32⟩
  | .hbm, ⟨12, _⟩ => ⟨S32x1376x8, .i32⟩
  | .hbm, ⟨13, _⟩ => ⟨S32x1376x8, .i32⟩
  | .hbm, ⟨14, _⟩ => ⟨S32x1376x8, .i32⟩
  | .hbm, ⟨15, _⟩ => ⟨S_, .i32⟩
  | .hbm, ⟨16, _⟩ => ⟨S32x1376x8, .i32⟩
  | .hbm, ⟨17, _⟩ => ⟨S32x1376x8, .i32⟩
  | .hbm, ⟨18, _⟩ => ⟨S32x11008, .i32⟩
  | .hbm, ⟨19, _⟩ => ⟨S_, .i32⟩
  | .hbm, ⟨20, _⟩ => ⟨S32x11008, .i32⟩
  | .hbm, ⟨21, _⟩ => ⟨S32x11008, .i32⟩
  | .hbm, ⟨22, _⟩ => ⟨S8192x11008, .f32⟩
  | .hbm, ⟨23, _⟩ => ⟨S4x2048x11008, .f32⟩
  | .local _ .vmem, ⟨0, _⟩ => ⟨S2048x4096, .bf16⟩
  | .local _ .vmem, ⟨1, _⟩ => ⟨S512x256, .i32⟩
  | .local _ .vmem, ⟨2, _⟩ => ⟨S512x256, .i32⟩
  | .local _ .vmem, ⟨3, _⟩ => ⟨S32x256, .i32⟩
  | .local _ .vmem, ⟨4, _⟩ => ⟨S32x256, .i32⟩
  | .local _ .vmem, ⟨5, _⟩ => ⟨S32x256, .f32⟩
  | .local _ .vmem, ⟨6, _⟩ => ⟨S32x256, .f32⟩
  | .local _ .vmem, ⟨7, _⟩ => ⟨S2048x256, .f32⟩
  | .local _ .vmem, ⟨8, _⟩ => ⟨S2048x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 43], ![false, false]⟩

def k0_mult1 : BitVec 32 :=
  let c0_i32 : BitVec 32 := 0#32
  let c1024_i32 : BitVec 32 := 1024#32
  let v5 : BitVec 32 := Scalar.muli c0_i32 c1024_i32
  v5
def k0_mult2 : BitVec 32 :=
  let c0_i32 : BitVec 32 := 0#32
  let c128_i32 : BitVec 32 := 128#32
  let v7 : BitVec 32 := Scalar.muli c0_i32 c128_i32
  v7
def k0_mult3 : BitVec 32 :=
  let c0_i32 : BitVec 32 := 0#32
  let c8_i32 : BitVec 32 := 8#32
  let v9 : BitVec 32 := Scalar.muli c0_i32 c8_i32
  v9
def k0_off1 (c0_i32 : BitVec 32) : Fin 2 → Nat :=
  let c0_1 : Index := 0#32
  let c1024_i32 : BitVec 32 := 1024#32
  let v5 : BitVec 32 := Scalar.muli c0_i32 c1024_i32
  let v6 : BitVec 32 := v5
  let v11 : Index := Scalar.indexCast v6
  ![0, v11.toNat]
def k0_off2 (c0_i32 : BitVec 32) : Fin 2 → Nat :=
  let c128_i32 : BitVec 32 := 128#32
  let v7 : BitVec 32 := Scalar.muli c0_i32 c128_i32
  let v8 : BitVec 32 := v7
  let v14 : Index := Scalar.indexCast v8
  let c0_2 : Index := 0#32
  ![v14.toNat, 0]
def k0_off3 (c0_i32 : BitVec 32) : Fin 2 → Nat :=
  let c8_i32 : BitVec 32 := 8#32
  let v9 : BitVec 32 := Scalar.muli c0_i32 c8_i32
  let v10 : BitVec 32 := v9
  let v16 : Index := Scalar.indexCast v10
  let c0_3 : Index := 0#32
  ![v16.toNat, 0]
def k0_mult4 : BitVec 32 :=
  let c1_i32 : BitVec 32 := 1#32
  let c1024_i32_10 : BitVec 32 := 1024#32
  let v42 : BitVec 32 := Scalar.muli c1_i32 c1024_i32_10
  v42
def k0_mult5 : BitVec 32 :=
  let c1_i32 : BitVec 32 := 1#32
  let c128_i32_11 : BitVec 32 := 128#32
  let v44 : BitVec 32 := Scalar.muli c1_i32 c128_i32_11
  v44
def k0_mult6 : BitVec 32 :=
  let c1_i32 : BitVec 32 := 1#32
  let c8_i32_12 : BitVec 32 := 8#32
  let v46 : BitVec 32 := Scalar.muli c1_i32 c8_i32_12
  v46
def k0_mult7 : BitVec 32 :=
  let c2_i32 : BitVec 32 := 2#32
  let c1024_i32_23 : BitVec 32 := 1024#32
  let v79 : BitVec 32 := Scalar.muli c2_i32 c1024_i32_23
  v79
def k0_mult8 : BitVec 32 :=
  let c2_i32 : BitVec 32 := 2#32
  let c128_i32_24 : BitVec 32 := 128#32
  let v81 : BitVec 32 := Scalar.muli c2_i32 c128_i32_24
  v81
def k0_mult9 : BitVec 32 :=
  let c2_i32 : BitVec 32 := 2#32
  let c8_i32_25 : BitVec 32 := 8#32
  let v83 : BitVec 32 := Scalar.muli c2_i32 c8_i32_25
  v83
def k0_mult10 : BitVec 32 :=
  let c3_i32 : BitVec 32 := 3#32
  let c1024_i32_36 : BitVec 32 := 1024#32
  let v116 : BitVec 32 := Scalar.muli c3_i32 c1024_i32_36
  v116
def k0_mult11 : BitVec 32 :=
  let c3_i32 : BitVec 32 := 3#32
  let c128_i32_37 : BitVec 32 := 128#32
  let v118 : BitVec 32 := Scalar.muli c3_i32 c128_i32_37
  v118
def k0_mult12 : BitVec 32 :=
  let c3_i32 : BitVec 32 := 3#32
  let c8_i32_38 : BitVec 32 := 8#32
  let v120 : BitVec 32 := Scalar.muli c3_i32 c8_i32_38
  v120
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S32x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4x2048x4096_S8192x4096 : S4x2048x4096.ShapeCasts S8192x4096
  bitsLt_bf16_f32 : FTy.bits .bf16 < FTy.bits .f32
  bcast_S_S8 : S_.BroadcastsInDim S8 (![] : Fin 0 → Fin S8.rank)
  bcast_S32x1376_S32x1376x1_0_1 : S32x1376.BroadcastsInDim S32x1376x1 (![0, 1] : Fin 2 → Fin S32x1376x1.rank)
  bcast_S8_S1x1x8_2 : S8.BroadcastsInDim S1x1x8 (![2] : Fin 1 → Fin S1x1x8.rank)
  bcast_S32x1376x1_S32x1376x8_0_1_2 : S32x1376x1.BroadcastsInDim S32x1376x8 (![0, 1, 2] : Fin 3 → Fin S32x1376x8.rank)
  bcast_S1x1x8_S32x1376x8_0_1_2 : S1x1x8.BroadcastsInDim S32x1376x8 (![0, 1, 2] : Fin 3 → Fin S32x1376x8.rank)
  bcast_S_S32x1376x8 : S_.BroadcastsInDim S32x1376x8 (![] : Fin 0 → Fin S32x1376x8.rank)
  shapeCasts_S32x1376x8_S32x11008 : S32x1376x8.ShapeCasts S32x11008
  bcast_S_S32x11008 : S_.BroadcastsInDim S32x11008 (![] : Fin 0 → Fin S32x11008.rank)
  iota_S128x8x256_d1_w32 : S128x8x256.Iotas .tc 32 [1]
  inb_S2048x256_S2048x256_0_0 : ∀ a, (![0, 0] : Fin 2 → Nat) a + S2048x256.size a ≤ S2048x256.size a
  h_S2048x256 : 0 < S2048x256.numel
  h_S2048x1024 : 0 < S2048x1024.numel
  shapeCasts_S2048x1024_S2048x1024 : S2048x1024.ShapeCasts S2048x1024
  h_S128x256 : 0 < S128x256.numel
  h_S8x256 : 0 < S8x256.numel
  shapeCasts_S8x256_S8x256 : S8x256.ShapeCasts S8x256
  shapeCasts_S128x256_S128x1x256 : S128x256.ShapeCasts S128x1x256
  broadcasts_S128x1x256_S128x8x256 : S128x1x256.Broadcasts S128x8x256
  shapeCasts_S128x8x256_S1024x256 : S128x8x256.ShapeCasts S1024x256
  shapeCasts_S1024x256_S8x128x256 : S1024x256.ShapeCasts S8x128x256
  shapeCasts_S8x256_S8x1x256 : S8x256.ShapeCasts S8x1x256
  broadcasts_S8x1x256_S8x128x256 : S8x1x256.Broadcasts S8x128x256
  shapeCasts_S8x128x256_S1024x256 : S8x128x256.ShapeCasts S1024x256
  shapeCasts_S2048x256_S2048x256 : S2048x256.ShapeCasts S2048x256
  shapeCasts_S8192x11008_S4x2048x11008 : S8192x11008.ShapeCasts S4x2048x11008
  dot_S2048x1024_S1024x256_S2048x256_1_0_0_1_n_n_wf : DotDims.WF S2048x1024 S1024x256 S2048x256 [1] [0] [0] [1] [] []
  hrank0 : 0 < grid0.rank
  k0_mult1_dvd : 1024 ∣ k0_mult1.toNat
  k0_mult2_dvd : 128 ∣ k0_mult2.toNat
  k0_mult3_dvd : 8 ∣ k0_mult3.toNat
  k0_off1_inb : ∀ (r : Fin 4), ∀ a, (k0_off1 (BitVec.ofNat 32 r.val)) a + S2048x1024.size a ≤ S2048x4096.size a
  k0_off2_inb : ∀ (r : Fin 4), ∀ a, (k0_off2 (BitVec.ofNat 32 r.val)) a + S128x256.size a ≤ S512x256.size a
  k0_off3_inb : ∀ (r : Fin 4), ∀ a, (k0_off3 (BitVec.ofNat 32 r.val)) a + S8x256.size a ≤ S32x256.size a
  k0_mult4_dvd : 1024 ∣ k0_mult4.toNat
  k0_mult5_dvd : 128 ∣ k0_mult5.toNat
  k0_mult6_dvd : 8 ∣ k0_mult6.toNat
  k0_mult7_dvd : 1024 ∣ k0_mult7.toNat
  k0_mult8_dvd : 128 ∣ k0_mult8.toNat
  k0_mult9_dvd : 8 ∣ k0_mult9.toNat
  k0_mult10_dvd : 1024 ∣ k0_mult10.toNat
  k0_mult11_dvd : 128 ∣ k0_mult11.toNat
  k0_mult12_dvd : 8 ∣ k0_mult12.toNat
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x4096.size a ≤ S8192x4096.size a
  hwx0_0 : ∀ i : grid0.Coords, EltTy.bits .bf16 = 32 ∨ (Rect.block (s := S8192x4096) S2048x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x11008.size a
  hwx0_1 : ∀ i : grid0.Coords, EltTy.bits .i32 = 32 ∨ (Rect.block (s := S512x11008) S512x256.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x256.size a ≤ S32x11008.size a
  hwx0_2 : ∀ i : grid0.Coords, EltTy.bits .i32 = 32 ∨ (Rect.block (s := S32x11008) S32x256.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x256.size a ≤ S32x11008.size a
  hwx0_3 : ∀ i : grid0.Coords, EltTy.bits .f32 = 32 ∨ (Rect.block (s := S32x11008) S32x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S8192x11008.size a
  hwx0_4 : ∀ i : grid0.Coords, EltTy.bits .f32 = 32 ∨ (Rect.block (s := S8192x11008) S2048x256.size (cc0_transform_4 i) (hinb0_4 i)).WholeWords (EltTy.packing .f32)

variable [Facts₀]

def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf

abbrev win0_0 : Pipeline.Window sig grid0 :=
  Pipeline.Window.ofSpec (Memref.whole main_v1) S2048x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S32x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15) S2048x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S512x11008 : Shape := ⟨2, ![512, 11008]⟩
abbrev S32x1376 : Shape := ⟨2, ![32, 1376]⟩
abbrev S32x11008 : Shape := ⟨2, ![32, 11008]⟩
abbrev S8 : Shape := ⟨1, ![8]⟩
abbrev S512x1x11008 : Shape := ⟨3, ![512, 1, 11008]⟩
abbrev S1x8x1 : Shape := ⟨3, ![1, 8, 1]⟩
abbrev S512x8x11008 : Shape := ⟨3, ![512, 8, 11008]⟩
abbrev S_ : Shape := ⟨0, ![]⟩
abbrev S4096x11008 : Shape := ⟨2, ![4096, 11008]⟩
abbrev S32x1376x1 : Shape := ⟨3, ![32, 1376, 1]⟩
abbrev S1x1x8 : Shape := ⟨3, ![1, 1, 8]⟩
abbrev S32x1376x8 : Shape := ⟨3, ![32, 1376, 8]⟩
abbrev S32x128x11008 : Shape := ⟨3, ![32, 128, 11008]⟩
abbrev S32x1x11008 : Shape := ⟨3, ![32, 1, 11008]⟩
abbrev S4x2048x11008 : Shape := ⟨3, ![4, 2048, 11008]⟩

abbrev nBuf : Space → Nat
  | .hbm => 36
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S512x11008, .i32⟩
  | .hbm, ⟨2, _⟩ => ⟨S32x1376, .i32⟩
  | .hbm, ⟨3, _⟩ => ⟨S32x11008, .f32⟩
  | .hbm, ⟨4, _⟩ => ⟨S8, .i32⟩
  | .hbm, ⟨5, _⟩ => ⟨S512x1x11008, .i32⟩
  | .hbm, ⟨6, _⟩ => ⟨S1x8x1, .i32⟩
  | .hbm, ⟨7, _⟩ => ⟨S512x8x11008, .i32⟩
  | .hbm, ⟨8, _⟩ => ⟨S512x8x11008, .i32⟩
  | .hbm, ⟨9, _⟩ => ⟨S512x8x11008, .i32⟩
  | .hbm, ⟨10, _⟩ => ⟨S_, .i32⟩
  | .hbm, ⟨11, _⟩ => ⟨S512x8x11008, .i32⟩
  | .hbm, ⟨12, _⟩ => ⟨S512x8x11008, .i32⟩
  | .hbm, ⟨13, _⟩ => ⟨S4096x11008, .i32⟩
  | .hbm, ⟨14, _⟩ => ⟨S32x1376x1, .i32⟩
  | .hbm, ⟨15, _⟩ => ⟨S1x1x8, .i32⟩
  | .hbm, ⟨16, _⟩ => ⟨S32x1376x8, .i32⟩
  | .hbm, ⟨17, _⟩ => ⟨S32x1376x8, .i32⟩
  | .hbm, ⟨18, _⟩ => ⟨S32x1376x8, .i32⟩
  | .hbm, ⟨19, _⟩ => ⟨S_, .i32⟩
  | .hbm, ⟨20, _⟩ => ⟨S32x1376x8, .i32⟩
  | .hbm, ⟨21, _⟩ => ⟨S32x1376x8, .i32⟩
  | .hbm, ⟨22, _⟩ => ⟨S32x11008, .i32⟩
  | .hbm, ⟨23, _⟩ => ⟨S_, .i32⟩
  | .hbm, ⟨24, _⟩ => ⟨S32x11008, .i32⟩
  | .hbm, ⟨25, _⟩ => ⟨S32x11008, .i32⟩
  | .hbm, ⟨26, _⟩ => ⟨S32x128x11008, .i32⟩
  | .hbm, ⟨27, _⟩ => ⟨S32x1x11008, .i32⟩
  | .hbm, ⟨28, _⟩ => ⟨S32x128x11008, .i32⟩
  | .hbm, ⟨29, _⟩ => ⟨S32x128x11008, .i32⟩
  | .hbm, ⟨30, _⟩ => ⟨S32x128x11008, .f32⟩
  | .hbm, ⟨31, _⟩ => ⟨S32x1x11008, .f32⟩
  | .hbm, ⟨32, _⟩ => ⟨S32x128x11008, .f32⟩
  | .hbm, ⟨33, _⟩ => ⟨S32x128x11008, .f32⟩
  | .hbm, ⟨34, _⟩ => ⟨S4096x11008, .f32⟩
  | .hbm, ⟨35, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]

class Facts₀ : Prop where
  bcast_S512x11008_S512x1x11008_0_2 : S512x11008.BroadcastsInDim S512x1x11008 (![0, 2] : Fin 2 → Fin S512x1x11008.rank)
  bcast_S8_S1x8x1_1 : S8.BroadcastsInDim S1x8x1 (![1] : Fin 1 → Fin S1x8x1.rank)
  bcast_S512x1x11008_S512x8x11008_0_1_2 : S512x1x11008.BroadcastsInDim S512x8x11008 (![0, 1, 2] : Fin 3 → Fin S512x8x11008.rank)
  bcast_S1x8x1_S512x8x11008_0_1_2 : S1x8x1.BroadcastsInDim S512x8x11008 (![0, 1, 2] : Fin 3 → Fin S512x8x11008.rank)
  bcast_S_S512x8x11008 : S_.BroadcastsInDim S512x8x11008 (![] : Fin 0 → Fin S512x8x11008.rank)
  shapeCasts_S512x8x11008_S4096x11008 : S512x8x11008.ShapeCasts S4096x11008
  bcast_S32x1376_S32x1376x1_0_1 : S32x1376.BroadcastsInDim S32x1376x1 (![0, 1] : Fin 2 → Fin S32x1376x1.rank)
  bcast_S8_S1x1x8_2 : S8.BroadcastsInDim S1x1x8 (![2] : Fin 1 → Fin S1x1x8.rank)
  bcast_S32x1376x1_S32x1376x8_0_1_2 : S32x1376x1.BroadcastsInDim S32x1376x8 (![0, 1, 2] : Fin 3 → Fin S32x1376x8.rank)
  bcast_S1x1x8_S32x1376x8_0_1_2 : S1x1x8.BroadcastsInDim S32x1376x8 (![0, 1, 2] : Fin 3 → Fin S32x1376x8.rank)
  bcast_S_S32x1376x8 : S_.BroadcastsInDim S32x1376x8 (![] : Fin 0 → Fin S32x1376x8.rank)
  shapeCasts_S32x1376x8_S32x11008 : S32x1376x8.ShapeCasts S32x11008
  bcast_S_S32x11008 : S_.BroadcastsInDim S32x11008 (![] : Fin 0 → Fin S32x11008.rank)
  shapeCasts_S4096x11008_S32x128x11008 : S4096x11008.ShapeCasts S32x128x11008
  bcast_S32x11008_S32x1x11008_0_2 : S32x11008.BroadcastsInDim S32x1x11008 (![0, 2] : Fin 2 → Fin S32x1x11008.rank)
  bcast_S32x1x11008_S32x128x11008_0_1_2 : S32x1x11008.BroadcastsInDim S32x128x11008 (![0, 1, 2] : Fin 3 → Fin S32x128x11008.rank)
  shapeCasts_S32x128x11008_S4096x11008 : S32x128x11008.ShapeCasts S4096x11008
  dot_S4x2048x4096_S4096x11008_S4x2048x11008_2_0_01_1_n_n_wf : DotDims.WF S4x2048x4096 S4096x11008 S4x2048x11008 [2] [0] [0, 1] [1] [] []

variable [Facts₀]

def dot_S4x2048x4096_S4096x11008_S4x2048x11008_2_0_01_1_n_n : DotDims S4x2048x4096 S4096x11008 S4x2048x11008 where
  lhsContracting := [2]
  rhsContracting := [0]
  lhsNonContracting := [0, 1]
  rhsNonContracting := [1]
  lhsBatch := []
  rhsBatch := []
  wf := dot_S4x2048x4096_S4096x11008_S4x2048x11008_2_0_01_1_n_n_wf

class Facts : Prop extends Facts₀ where

variable [Facts]
-- ==== Proof.KernelBlock.lean ====
/-
  What one grid point's body leaves in the output block, as a value.

  The body zeroes its [2048, 256] output block, then four times reads the block back, adds the product of a
  [2048, 1024] slice of the activations with the dequantised [1024, 256] slice of the weights, and stores the sum
  over the whole block. Every store covers the whole block and every read-back reads what the store before it
  left, so the block ends holding the four chunk payloads nested, innermost the zero block.
-/
import proofs.«414776_j49770081026424_3_alg».proof.Proof.Gen.KernelIdeal.Frame
import Idealize.ShloMosaic.Lib.Pipeline.Value

set_option maxRecDepth 16384

noncomputable section

namespace Cert.KernelIdeal.BodyValue

open Cert.KernelIdeal Cert.KernelIdeal.Gen
open Idealize.ShloMosaic Idealize.ShloMosaic.TcCoe Idealize.ShloMosaic.Tactic
open Idealize.SL Idealize.SL.Sem

variable {F : FTy → Type} [FloatOps F]

/-- The block's origin. -/
theorem origin : (![0, 0] : Fin 2 → Nat) = fun _ => 0 := funext fun a => by fin_cases a <;> rfl

/-- A read of the whole block after a store over the whole block reads that store's value, whatever was stored
    before it. -/
theorem readCov_cons_whole {Val : EltTy → Type} [∀ e, Nonempty (Val e)] {S : Shape} {e : EltTy} {sig : RefSig} {κ : Kind} {sp : Space}
    (v : View sig κ sp S e) {off : Fin S.rank → Nat} (h : off = fun _ => 0) (inb : ∀ a, off a + S.size a ≤ S.size a)
    (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

/-- The slices of the four input blocks that chunk `q` of the reduction reads: columns `1024 q …` of the
    activations, packed rows `128 q …` of the weights, groups `8 q …` of the zero points and of the scales. -/
abbrev actSlice (x0 : Vec F S2048x4096 .bf16) (q : Fin 4) : Vec F S2048x1024 .bf16 :=
  View.ld x0 (Rect.unit (s := S2048x4096) (k0_off1 (BitVec.ofNat 32 q.val)) S2048x1024.size (Facts₀.k0_off1_inb q))
abbrev packedSlice (x1 : Vec F S512x256 .i32) (q : Fin 4) : Vec F S128x256 .i32 :=
  View.ld x1 (Rect.unit (s := S512x256) (k0_off2 (BitVec.ofNat 32 q.val)) S128x256.size (Facts₀.k0_off2_inb q))
abbrev zeroSlice (x2 : Vec F S32x256 .i32) (q : Fin 4) : Vec F S8x256 .i32 :=
  View.ld x2 (Rect.unit (s := S32x256) (k0_off3 (BitVec.ofNat 32 q.val)) S8x256.size (Facts₀.k0_off3_inb q))
abbrev scaleSlice (x3 : Vec F S32x256 .f32) (q : Fin 4) : Vec F S8x256 .f32 :=
  View.ld x3 (Rect.unit (s := S32x256) (k0_off3 (BitVec.ofNat 32 q.val)) S8x256.size (Facts₀.k0_off3_inb q))

/-- What the body leaves in the output block: the four chunk payloads nested over the zero block. -/
theorem block_eq (c : Dev nD) (i : grid0.Coords) (arg2 : Memref sig .tc .vmem S2048x4096 .bf16) (harg2 : arg2.IsWhole) (arg3 : Memref sig .tc .vmem S512x256 .i32) (harg3 : arg3.IsWhole) (arg4 : Memref sig .tc .vmem S32x256 .i32) (harg4 : arg4.IsWhole) (arg5 : Memref sig .tc .vmem S32x256 .f32) (harg5 : arg5.IsWhole) (arg6 : Memref sig .tc .vmem S2048x256 .f32) (harg6 : arg6.IsWhole)
    (x0 : Vec F S2048x4096 .bf16) (x1 : Vec F S512x256 .i32) (x2 : Vec F S32x256 .i32) (x3 : Vec F S32x256 .f32) :
    out0_A_4 c i arg2 harg2 arg3 harg3 arg4 harg4 arg5 harg5 arg6 harg6 x0 x1 x2 x3
      = k0_pay1 k0_pay2 (actSlice x0 3) (packedSlice x1 3) (zeroSlice x2 3) (scaleSlice x3 3)
          (k0_pay6 k0_pay2 (actSlice x0 2) (packedSlice x1 2) (zeroSlice x2 2) (scaleSlice x3 2)
            (k0_pay5 k0_pay2 (actSlice x0 1) (packedSlice x1 1) (zeroSlice x2 1) (scaleSlice x3 1)
              (k0_pay4 (actSlice x0 0) (packedSlice x1 0) (zeroSlice x2 0) (scaleSlice x3 0) k0_pay3))) := by
  unfold out0_A_4
  rw [View.read_writes_eq_canon _ _ _ (cover0_A_4 c i arg2 harg2 arg3 harg3 arg4 harg4 arg5 harg5 arg6 harg6 x0 x1 x2 x3)]
  unfold kernelRun0_A
  dsimp only
  sl_unfold_words
  rw [View.canon_cons_unit_zero (S := S2048x256) origin]
  simp only [View.readAt_eq_ld, harg2.read_unread, harg3.read_unread, harg4.read_unread, harg5.read_unread,
    View.readCov_unit_zero (S := S2048x256) _ origin, readCov_cons_whole (S := S2048x256) _ origin]
  rfl

end Cert.KernelIdeal.BodyValue

end
-- ==== Proof.Dequant.lean ====
/-
  The mathematics both programs compute, stated once over the argument arrays.

  A 4-bit quantised linear layer. The weight matrix has 4096 input rows and 11008 output columns. Eight
  consecutive input rows are packed into one 32-bit word (row `k` is nibble `k % 8` of packed row `k / 8`);
  the rows come in 32 groups of 128, and each (group, column) pair has a zero point and a scale. The zero
  points are packed too, eight consecutive COLUMNS to a word (column `o` is nibble `o % 8` of packed
  column `o / 8`), and are stored less one. The dequantised weight at (k, o) is
      (nibble − (zero + 1)) · scale,
  the integer difference read exactly, and the layer's output at (b, s, o) is the sum over the 4096 input
  features `k` of `x[b, s, k]` times that weight. Over the extended reals this sum may be taken in any
  grouping: in four consecutive chunks of 1024 features, accumulated from zero, as the kernel does, or at
  once, as the reference does (`sum_chunks`).
-/
import Idealize.ShloMosaic.PureOps.Ideal
import Idealize.ShloMosaic.Lib.ValueIdx

noncomputable section

open scoped BigOperators

namespace Cert.Dequant

open Idealize.ShloMosaic Idealize.ShloMosaic.ValueIdx

/-- The shift that brings nibble `j` of a packed word to the low four bits, `4 j`, as the product of the
    coordinate with four that the programs compute. -/
def shiftOf (j : Fin 8) : BitVec 32 := IntOp.muli (BitVec.ofNat 32 j.val) 4#32

/-- Nibble `j` of a packed word: the word shifted right by `4 j`, its low four bits kept. -/
def nibble (w : BitVec 32) (j : Fin 8) : BitVec 32 := IntOp.andi (IntOp.shrsi .vector w (shiftOf j)) 15#32

/-- The zero point of (group `g`, column `o`), plus one: nibble `o % 8` of packed word (g, o / 8), plus one. -/
def zeroPlusOne (qz : IVec ⟨2, ![32, 1376]⟩ 32) (g : Fin 32) (o : Fin 11008) : BitVec 32 :=
  IntOp.addi (nibble (qz (ix2 g ⟨o.val / 8, by omega⟩)) ⟨o.val % 8, by omega⟩) 1#32

/-- The same as a [32, 11008] array. -/
def zeroPlusOneArr (qz : IVec ⟨2, ![32, 1376]⟩ 32) : IVec ⟨2, ![32, 11008]⟩ 32 :=
  fun i => zeroPlusOne qz ⟨(i 0).val, idx2_lt0 i⟩ ⟨(i 1).val, idx2_lt1 i⟩

/-- One dequantised entry, by its coordinates, for packed weights of any extents (`P` packed rows, `G` groups,
    `n` columns): nibble `j` of packed word (p, o), less the zero point plus one of (g, o), read as an exact
    integer, times the scale of (g, o). -/
def deq {P G n : Nat} (QW : IVec ⟨2, ![P, n]⟩ 32) (Z : IVec ⟨2, ![G, n]⟩ 32)
    (SC : (⟨2, ![G, n]⟩ : Shape).Idx → EReal) (p : Fin P) (j : Fin 8) (g : Fin G) (o : Fin n) : EReal :=
  FloatOps.sitofp (F := Ideal) .f32 (IntOp.subi (nibble (QW (ix2 p o)) j) (Z (ix2 g o))) * SC (ix2 g o)

/-- The dequantised weight at input row `k` and column `o`, for any number `n` of columns (the whole matrix has
    11008, a column tile 256): row `k` is nibble `k % 8` of packed row `k / 8`, and its group is `k / 128`. -/
def weight {n : Nat} (QW : IVec ⟨2, ![512, n]⟩ 32) (Z : IVec ⟨2, ![32, n]⟩ 32)
    (SC : (⟨2, ![32, n]⟩ : Shape).Idx → EReal) (k : Fin 4096) (o : Fin n) : EReal :=
  deq QW Z SC ⟨k.val / 8, by omega⟩ ⟨k.val % 8, by omega⟩ ⟨k.val / 128, by omega⟩ o

/-- Activations times dequantised weights, for `R` rows of activations and `n` columns: entry (r, o) is the sum
    over the 4096 input features of `X[r, k] · weight[k, o]`. -/
def matProd {R n : Nat} (X : (⟨2, ![R, 4096]⟩ : Shape).Idx → EReal) (QW : IVec ⟨2, ![512, n]⟩ 32)
    (Z : IVec ⟨2, ![32, n]⟩ 32) (SC : (⟨2, ![32, n]⟩ : Shape).Idx → EReal) : (⟨2, ![R, n]⟩ : Shape).Idx → EReal :=
  fun i => ∑ k : Fin 4096, X (ix2 ⟨(i 0).val, idx2_lt0 i⟩ k) * weight QW Z SC k ⟨(i 1).val, idx2_lt1 i⟩

/-- THE LAYER'S OUTPUT, [4, 2048, 11008], of the four argument arrays: entry (b, s, o) is the sum over the input
    features `k` of `x[b, s, k]` times the dequantised weight at (k, o). -/
def output (x : (⟨3, ![4, 2048, 4096]⟩ : Shape).Idx → EReal) (qw : IVec ⟨2, ![512, 11008]⟩ 32)
    (qz : IVec ⟨2, ![32, 1376]⟩ 32) (sc : (⟨2, ![32, 11008]⟩ : Shape).Idx → EReal) :
    (⟨3, ![4, 2048, 11008]⟩ : Shape).Idx → EReal :=
  fun i => ∑ k : Fin 4096, x (ix3 ⟨(i 0).val, (i 0).isLt⟩ ⟨(i 1).val, (i 1).isLt⟩ k)
    * weight qw (zeroPlusOneArr qz) sc k ⟨(i 2).val, (i 2).isLt⟩

/-- A sum over 4096 terms is the sum of its four consecutive chunks of 1024, accumulated from zero in order:
    addition in a commutative monoid (the extended reals among them) may be regrouped freely. -/
theorem sum_chunks {M : Type*} [AddCommMonoid M] (f : Fin 4096 → M) :
    ∑ k, f k = (((0 + ∑ k : Fin 1024, f ⟨k.val, by omega⟩) + ∑ k : Fin 1024, f ⟨1024 + k.val, by omega⟩)
      + ∑ k : Fin 1024, f ⟨2048 + k.val, by omega⟩) + ∑ k : Fin 1024, f ⟨3072 + k.val, by omega⟩ := by
  have e : ∀ g : Fin (1024 + 1024 + 1024 + 1024) → M, ∑ k, g k
      = ((∑ k : Fin 1024, g ⟨k.val, by omega⟩ + ∑ k : Fin 1024, g ⟨1024 + k.val, by omega⟩)
        + ∑ k : Fin 1024, g ⟨1024 + 1024 + k.val, by omega⟩) + ∑ k : Fin 1024, g ⟨1024 + 1024 + 1024 + k.val, by omega⟩ := fun g => by
    rw [Fin.sum_univ_add, Fin.sum_univ_add, Fin.sum_univ_add]
    rfl
  rw [zero_add]
  exact e f

/-- The nibble shifts as a table: `4 j` is the word the reference lists at position `j`. -/
theorem shiftOf_eq (j : Fin 8) : shiftOf j = BitVec.ofNat 32 (4 * j.val) := by
  fin_cases j <;> rfl

/-- At 32 bits the host's arithmetic right shift is the vector unit's, at every amount. -/
theorem shrsi_host (x y : BitVec 32) : IntOp.shrsi .host x y = IntOp.shrsi .vector x y := by
  simp [IntOp.shrsi, IntOp.cornerWord]

end Cert.Dequant

end
-- ==== Proof.KernelChunk.lean ====
/-
  The arithmetic of one chunk of the kernel's body, read at an index.

  Each of the four chunks adds to the accumulator block the product of a [2048, 1024] block of activations with a
  [1024, 256] block of dequantised weights. Row `k` of that weight block is nibble `k % 8` of packed row `k / 8`,
  less the zero point of its group `k / 128`, times the group's scale; the body builds it by broadcasting the packed
  words along a new middle axis of eight, shifting each copy right by four times its position on that axis, keeping the
  low four bits, and reading the [128, 8, 256] result as [1024, 256] and then as [8, 128, 256] to meet the per-group
  zero points and scales. At an index all of this is arithmetic on row-major positions: `k = 8 (k / 8) + k % 8` and
  `k = 128 (k / 128) + k % 128`. The product itself contracts one axis, so its sum is re-indexed to `k : Fin 1024`.
-/
import proofs.«414776_j49770081026424_3_alg».proof.Proof.Gen.KernelIdeal.Skeleton
import proofs.«414776_j49770081026424_3_alg».proof.Proof.Dequant
import Idealize.ShloMosaic.Lib.ValueLayout
import Idealize.ShloMosaic.PureOps.Ideal.Laws

noncomputable section

open scoped BigOperators

namespace Cert.KernelIdeal.ChunkValue

open Cert.KernelIdeal Cert.KernelIdeal.Gen Idealize.ShloMosaic Idealize.ShloMosaic.ValueIdx Cert.Dequant

/-! ## Layout steps at an index -/

section Layout
variable {α : Type}

/-- A [128, 256] array given a unit middle axis and broadcast along it to eight reads, at `(p, j, c)`, the array at `(p, c)`. -/
theorem spread8_apply (x : S128x256.Idx → α) (p : Fin 128) (j : Fin 8) (c : Fin 256) :
    broadcastTo S128x8x256 (shapeCast S128x1x256 x shapeCasts_S128x256_S128x1x256) broadcasts_S128x1x256_S128x8x256 (ix3 p j c)
      = x (ix2 p c) := by
  refine (broadcastTo_apply _ broadcasts_S128x1x256_S128x8x256 (ix3 p j c) (ix3 p (0 : Fin 1) c) fun ax => ?_).trans ?_
  · match ax with
    | ⟨0, _⟩ => rfl
    | ⟨1, _⟩ => rfl
    | ⟨2, _⟩ => rfl
  · refine shapeCast_apply x shapeCasts_S128x256_S128x1x256 _ _ ?_
    rw [Shape.rowMajor_val_three, Shape.rowMajor_val_two]
    show p.val * 256 + c.val = (p.val * 1 + 0) * 256 + c.val
    omega

/-- An [8, 256] array given a unit middle axis and broadcast along it to 128 reads, at `(g, m, c)`, the array at `(g, c)`. -/
theorem spread128_apply (x : S8x256.Idx → α) (g : Fin 8) (m : Fin 128) (c : Fin 256) :
    broadcastTo S8x128x256 (shapeCast S8x1x256 x shapeCasts_S8x256_S8x1x256) broadcasts_S8x1x256_S8x128x256 (ix3 g m c)
      = x (ix2 g c) := by
  refine (broadcastTo_apply _ broadcasts_S8x1x256_S8x128x256 (ix3 g m c) (ix3 g (0 : Fin 1) c) fun ax => ?_).trans ?_
  · match ax with
    | ⟨0, _⟩ => rfl
    | ⟨1, _⟩ => rfl
    | ⟨2, _⟩ => rfl
  · refine shapeCast_apply x shapeCasts_S8x256_S8x1x256 _ _ ?_
    rw [Shape.rowMajor_val_three, Shape.rowMajor_val_two]
    show g.val * 256 + c.val = (g.val * 1 + 0) * 256 + c.val
    omega

/-- A [128, 8, 256] array read as [1024, 256]: row `k` is position `k % 8` of row `k / 8`. -/
theorem merge8_apply (x : S128x8x256.Idx → α) (k : Fin 1024) (c : Fin 256) :
    shapeCast S1024x256 x shapeCasts_S128x8x256_S1024x256 (ix2 k c)
      = x (ix3 (⟨k.val / 8, by omega⟩ : Fin 128) (⟨k.val % 8, by omega⟩ : Fin 8) c) := by
  refine shapeCast_apply x shapeCasts_S128x8x256_S1024x256 _ _ ?_
  rw [Shape.rowMajor_val_three, Shape.rowMajor_val_two]
  show (k.val / 8 * 8 + k.val % 8) * 256 + c.val = k.val * 256 + c.val
  omega

/-- An [8, 128, 256] array read as [1024, 256]: row `k` is position `k % 128` of group `k / 128`. -/
theorem merge128_apply (x : S8x128x256.Idx → α) (k : Fin 1024) (c : Fin 256) :
    shapeCast S1024x256 x shapeCasts_S8x128x256_S1024x256 (ix2 k c)
      = x (ix3 (⟨k.val / 128, by omega⟩ : Fin 8) (⟨k.val % 128, by omega⟩ : Fin 128) c) := by
  refine shapeCast_apply x shapeCasts_S8x128x256_S1024x256 _ _ ?_
  rw [Shape.rowMajor_val_three, Shape.rowMajor_val_two]
  show (k.val / 128 * 128 + k.val % 128) * 256 + c.val = k.val * 256 + c.val
  omega

/-- A [1024, 256] array read as [8, 128, 256]: position `k % 128` of group `k / 128` is row `k`. -/
theorem split128_apply (x : S1024x256.Idx → α) (k : Fin 1024) (c : Fin 256) :
    shapeCast S8x128x256 x shapeCasts_S1024x256_S8x128x256
        (ix3 (⟨k.val / 128, by omega⟩ : Fin 8) (⟨k.val % 128, by omega⟩ : Fin 128) c)
      = x (ix2 k c) := by
  refine shapeCast_apply x shapeCasts_S1024x256_S8x128x256 _ _ ?_
  rw [Shape.rowMajor_val_three, Shape.rowMajor_val_two]
  show k.val * 256 + c.val = (k.val / 128 * 128 + k.val % 128) * 256 + c.val
  omega

end Layout

/-! ## The nibble shifts -/

/-- The shift at position `j` of the middle axis is four times `j`. -/
theorem shifts_apply (p : Fin 128) (j : Fin 8) (c : Fin 256) : k0_pay2 (ix3 p j c) = shiftOf j := by
  unfold k0_pay2
  show IntOp.muli (iota .tc S128x8x256 32 [1] iota_S128x8x256_d1_w32 (ix3 p j c)) 4#32 = _
  rw [iota_single_apply]
  rfl

/-! ## The dequantised block -/

/-- The [1024, 256] block of dequantised weights the body multiplies by, from the shifts, the packed words, the zero
    points and the scales. -/
def wBlock (v2 : IVec S128x8x256 32) (vq : Vec Ideal S128x256 .i32) (vz : Vec Ideal S8x256 .i32) (vs : Vec Ideal S8x256 .f32) :
    FVec Ideal S1024x256 .bf16 :=
  shapeCast S1024x256
    (truncf .bf16
      (mulf
        (sitofp .f32
          (subi
            (shapeCast S8x128x256
              (shapeCast S1024x256
                (andi
                  (shrsi (broadcastTo S128x8x256 (shapeCast S128x1x256 vq shapeCasts_S128x256_S128x1x256) broadcasts_S128x1x256_S128x8x256) v2)
                  (broadcast S128x8x256 15#32))
                shapeCasts_S128x8x256_S1024x256)
              shapeCasts_S1024x256_S8x128x256)
            (broadcastTo S8x128x256 (shapeCast S8x1x256 (shapeCast S8x256 vz shapeCasts_S8x256_S8x256) shapeCasts_S8x256_S8x1x256)
              broadcasts_S8x1x256_S8x128x256)))
        (broadcastTo S8x128x256 (shapeCast S8x1x256 vs shapeCasts_S8x256_S8x1x256) broadcasts_S8x1x256_S8x128x256))
      bitsLt_bf16_f32)
    shapeCasts_S8x128x256_S1024x256

/-- Row `k`, column `c` of the dequantised block: nibble `k % 8` of packed word `(k / 8, c)`, less the zero point of
    `(k / 128, c)`, times that group's scale. -/
theorem wBlock_apply (vq : Vec Ideal S128x256 .i32) (vz : Vec Ideal S8x256 .i32) (vs : Vec Ideal S8x256 .f32)
    (k : Fin 1024) (c : Fin 256) :
    wBlock k0_pay2 vq vz vs (ix2 k c)
      = deq vq vz vs ⟨k.val / 8, by omega⟩ ⟨k.val % 8, by omega⟩ ⟨k.val / 128, by omega⟩ c := by
  unfold wBlock
  rw [merge128_apply]
  show FloatOps.sitofp (F := Ideal) .f32 (IntOp.subi _ _) * _ = _
  rw [spread128_apply, spread128_apply, split128_apply, merge8_apply, shapeCast_self]
  show FloatOps.sitofp (F := Ideal) .f32 (IntOp.subi (IntOp.andi (IntOp.shrsi .vector _ _) 15#32) _) * _ = _
  rw [spread8_apply, shifts_apply]
  rfl

/-! ## The product at an index -/

theorem lhs_0 (i : S2048x256.Idx) (q : dot_S2048x1024_S1024x256_S2048x256_1_0_0_1_n_n.contr.Idx) :
    (dot_S2048x1024_S1024x256_S2048x256_1_0_0_1_n_n.lhsIdx i q 0).val = (i 0).val := by
  unfold DotDims.lhsIdx
  rw [dif_neg (show ¬(0 : Fin S2048x1024.rank) ∈ dot_S2048x1024_S1024x256_S2048x256_1_0_0_1_n_n.lhsBatch by decide), dif_pos (show (0 : Fin S2048x1024.rank) ∈ dot_S2048x1024_S1024x256_S2048x256_1_0_0_1_n_n.lhsNonContracting by decide)]
  rfl

theorem lhs_1 (i : S2048x256.Idx) (q : dot_S2048x1024_S1024x256_S2048x256_1_0_0_1_n_n.contr.Idx) :
    (dot_S2048x1024_S1024x256_S2048x256_1_0_0_1_n_n.lhsIdx i q 1).val = (q ⟨0, by decide⟩).val :=
  dot_S2048x1024_S1024x256_S2048x256_1_0_0_1_n_n.lhsIdx_val_of_single rfl i q

theorem rhs_0 (i : S2048x256.Idx) (q : dot_S2048x1024_S1024x256_S2048x256_1_0_0_1_n_n.contr.Idx) :
    (dot_S2048x1024_S1024x256_S2048x256_1_0_0_1_n_n.rhsIdx i q 0).val = (q ⟨0, by decide⟩).val :=
  dot_S2048x1024_S1024x256_S2048x256_1_0_0_1_n_n.rhsIdx_val_of_single rfl i q

theorem rhs_1 (i : S2048x256.Idx) (q : dot_S2048x1024_S1024x256_S2048x256_1_0_0_1_n_n.contr.Idx) :
    (dot_S2048x1024_S1024x256_S2048x256_1_0_0_1_n_n.rhsIdx i q 1).val = (i 1).val := by
  unfold DotDims.rhsIdx
  rw [dif_neg (show ¬(1 : Fin S1024x256.rank) ∈ dot_S2048x1024_S1024x256_S2048x256_1_0_0_1_n_n.rhsBatch by decide), dif_pos (show (1 : Fin S1024x256.rank) ∈ dot_S2048x1024_S1024x256_S2048x256_1_0_0_1_n_n.rhsNonContracting by decide)]
  rfl

/-- The product of a [2048, 1024] block with a [1024, 256] block, accumulated from zero, at `(r, c)`: the sum over the
    1024 shared positions. -/
theorem product_apply (lhs : FVec Ideal S2048x1024 .bf16) (rhs : FVec Ideal S1024x256 .bf16) (r : Fin 2048) (c : Fin 256) :
    matmul dot_S2048x1024_S1024x256_S2048x256_1_0_0_1_n_n none lhs rhs (constant (F := Ideal) S2048x256 .f32 0x00000000#32) (ix2 r c)
      = ∑ k : Fin 1024, lhs (ix2 r k) * rhs (ix2 k c) := by
  refine (Ideal.matmul_constant_zero_apply dot_S2048x1024_S1024x256_S2048x256_1_0_0_1_n_n none lhs rhs (ix2 r c)).trans ?_
  rw [← Equiv.sum_comp (contrEquiv1 dot_S2048x1024_S1024x256_S2048x256_1_0_0_1_n_n 1024 rfl rfl).symm]
  refine Finset.sum_congr rfl fun k _ => ?_
  have hk := contrEquiv1_symm_val dot_S2048x1024_S1024x256_S2048x256_1_0_0_1_n_n 1024 rfl rfl k
  have el : dot_S2048x1024_S1024x256_S2048x256_1_0_0_1_n_n.lhsIdx (ix2 r c) ((contrEquiv1 dot_S2048x1024_S1024x256_S2048x256_1_0_0_1_n_n 1024 rfl rfl).symm k) = ix2 r k :=
    funext fun a => Fin.ext (by
      match a with
      | ⟨0, _⟩ => exact lhs_0 _ _
      | ⟨1, _⟩ => exact (lhs_1 _ _).trans hk)
  have er : dot_S2048x1024_S1024x256_S2048x256_1_0_0_1_n_n.rhsIdx (ix2 r c) ((contrEquiv1 dot_S2048x1024_S1024x256_S2048x256_1_0_0_1_n_n 1024 rfl rfl).symm k) = ix2 k c :=
    funext fun a => Fin.ext (by
      match a with
      | ⟨0, _⟩ => exact (rhs_0 _ _).trans hk
      | ⟨1, _⟩ => exact rhs_1 _ _)
  rw [el, er]

/-! ## One chunk -/

/-- One chunk of the body: the accumulator plus the product of the activations with the dequantised block. -/
def chunkTerm (v2 : IVec S128x8x256 32) (vx : Vec Ideal S2048x1024 .bf16) (vq : Vec Ideal S128x256 .i32) (vz : Vec Ideal S8x256 .i32)
    (vs : Vec Ideal S8x256 .f32) (acc : Vec Ideal S2048x256 .f32) : FVec Ideal S2048x256 .f32 :=
  addf (shapeCast S2048x256 acc shapeCasts_S2048x256_S2048x256)
    (matmul (φ₁ := .bf16) dot_S2048x1024_S1024x256_S2048x256_1_0_0_1_n_n none (shapeCast (α := Ideal .bf16) S2048x1024 vx shapeCasts_S2048x1024_S2048x1024) (wBlock v2 vq vz vs)
      (constant (F := Ideal) S2048x256 .f32 0x00000000#32))

/-- A chunk at `(r, c)`: the accumulator there plus the sum over the chunk's 1024 input features of the activation times
    the dequantised weight. -/
theorem chunkTerm_apply (vx : Vec Ideal S2048x1024 .bf16) (vq : Vec Ideal S128x256 .i32) (vz : Vec Ideal S8x256 .i32)
    (vs : Vec Ideal S8x256 .f32) (acc : Vec Ideal S2048x256 .f32) (r : Fin 2048) (c : Fin 256) :
    chunkTerm k0_pay2 vx vq vz vs acc (ix2 r c)
      = acc (ix2 r c) + ∑ k : Fin 1024, vx (ix2 r k)
          * deq vq vz vs ⟨k.val / 8, by omega⟩ ⟨k.val % 8, by omega⟩ ⟨k.val / 128, by omega⟩ c := by
  unfold chunkTerm
  rw [shapeCast_self, shapeCast_self]
  show acc (ix2 r c) + matmul dot_S2048x1024_S1024x256_S2048x256_1_0_0_1_n_n none vx (wBlock k0_pay2 vq vz vs) (constant (F := Ideal) S2048x256 .f32 0x00000000#32) (ix2 r c) = _
  rw [product_apply]
  exact congrArg (acc (ix2 r c) + ·) (Finset.sum_congr rfl fun k _ => by rw [wBlock_apply])

/-! ## The body's payloads -/

/-- The zero block is zero everywhere. -/
theorem zero_apply (r : Fin 2048) (c : Fin 256) : k0_pay3 (F := Ideal) (ix2 r c) = 0 := by
  unfold k0_pay3
  show Ideal.ofBits .f32 0x00000000#32 = 0
  exact Ideal.ofBits_zero_f32

theorem pay4_eq (vx : Vec Ideal S2048x1024 .bf16) (vq : Vec Ideal S128x256 .i32) (vz : Vec Ideal S8x256 .i32)
    (vs : Vec Ideal S8x256 .f32) (acc : Vec Ideal S2048x256 .f32) :
    k0_pay4 vx vq vz vs acc = chunkTerm k0_pay2 vx vq vz vs acc := rfl

theorem pay5_eq (v2 : IVec S128x8x256 32) (vx : Vec Ideal S2048x1024 .bf16) (vq : Vec Ideal S128x256 .i32) (vz : Vec Ideal S8x256 .i32)
    (vs : Vec Ideal S8x256 .f32) (acc : Vec Ideal S2048x256 .f32) :
    k0_pay5 v2 vx vq vz vs acc = chunkTerm v2 vx vq vz vs acc := rfl

theorem pay6_eq (v2 : IVec S128x8x256 32) (vx : Vec Ideal S2048x1024 .bf16) (vq : Vec Ideal S128x256 .i32) (vz : Vec Ideal S8x256 .i32)
    (vs : Vec Ideal S8x256 .f32) (acc : Vec Ideal S2048x256 .f32) :
    k0_pay6 v2 vx vq vz vs acc = chunkTerm v2 vx vq vz vs acc := rfl

theorem pay1_eq (v2 : IVec S128x8x256 32) (vx : Vec Ideal S2048x1024 .bf16) (vq : Vec Ideal S128x256 .i32) (vz : Vec Ideal S8x256 .i32)
    (vs : Vec Ideal S8x256 .f32) (acc : Vec Ideal S2048x256 .f32) :
    k0_pay1 v2 vx vq vz vs acc = chunkTerm v2 vx vq vz vs acc := rfl

theorem chunk4_apply (vx : Vec Ideal S2048x1024 .bf16) (vq : Vec Ideal S128x256 .i32) (vz : Vec Ideal S8x256 .i32)
    (vs : Vec Ideal S8x256 .f32) (acc : Vec Ideal S2048x256 .f32) (r : Fin 2048) (c : Fin 256) :
    k0_pay4 vx vq vz vs acc (ix2 r c)
      = acc (ix2 r c) + ∑ k : Fin 1024, vx (ix2 r k)
          * deq vq vz vs ⟨k.val / 8, by omega⟩ ⟨k.val % 8, by omega⟩ ⟨k.val / 128, by omega⟩ c :=
  (congrFun (pay4_eq vx vq vz vs acc) (ix2 r c)).trans (chunkTerm_apply vx vq vz vs acc r c)

theorem chunk5_apply (vx : Vec Ideal S2048x1024 .bf16) (vq : Vec Ideal S128x256 .i32) (vz : Vec Ideal S8x256 .i32)
    (vs : Vec Ideal S8x256 .f32) (acc : Vec Ideal S2048x256 .f32) (r : Fin 2048) (c : Fin 256) :
    k0_pay5 k0_pay2 vx vq vz vs acc (ix2 r c)
      = acc (ix2 r c) + ∑ k : Fin 1024, vx (ix2 r k)
          * deq vq vz vs ⟨k.val / 8, by omega⟩ ⟨k.val % 8, by omega⟩ ⟨k.val / 128, by omega⟩ c :=
  (congrFun (pay5_eq k0_pay2 vx vq vz vs acc) (ix2 r c)).trans (chunkTerm_apply vx vq vz vs acc r c)

theorem chunk6_apply (vx : Vec Ideal S2048x1024 .bf16) (vq : Vec Ideal S128x256 .i32) (vz : Vec Ideal S8x256 .i32)
    (vs : Vec Ideal S8x256 .f32) (acc : Vec Ideal S2048x256 .f32) (r : Fin 2048) (c : Fin 256) :
    k0_pay6 k0_pay2 vx vq vz vs acc (ix2 r c)
      = acc (ix2 r c) + ∑ k : Fin 1024, vx (ix2 r k)
          * deq vq vz vs ⟨k.val / 8, by omega⟩ ⟨k.val % 8, by omega⟩ ⟨k.val / 128, by omega⟩ c :=
  (congrFun (pay6_eq k0_pay2 vx vq vz vs acc) (ix2 r c)).trans (chunkTerm_apply vx vq vz vs acc r c)

theorem chunk1_apply (vx : Vec Ideal S2048x1024 .bf16) (vq : Vec Ideal S128x256 .i32) (vz : Vec Ideal S8x256 .i32)
    (vs : Vec Ideal S8x256 .f32) (acc : Vec Ideal S2048x256 .f32) (r : Fin 2048) (c : Fin 256) :
    k0_pay1 k0_pay2 vx vq vz vs acc (ix2 r c)
      = acc (ix2 r c) + ∑ k : Fin 1024, vx (ix2 r k)
          * deq vq vz vs ⟨k.val / 8, by omega⟩ ⟨k.val % 8, by omega⟩ ⟨k.val / 128, by omega⟩ c :=
  (congrFun (pay1_eq k0_pay2 vx vq vz vs acc) (ix2 r c)).trans (chunkTerm_apply vx vq vz vs acc r c)

end Cert.KernelIdeal.ChunkValue

end
-- ==== Proof.KernelTile.lean ====
/-
  One output tile as a function of the whole arrays.

  A grid point (i, j) stages row block `i` of the activations (2048 rows, all 4096 features) and column tile `j`
  (256 columns) of the packed weights, the zero points and the scales. Chunk `q` of the body's reduction reads
  features `1024 q …`, packed rows `128 q …` and groups `8 q …` of those blocks. Feature `1024 q + k` has packed
  row `128 q + k / 8`, nibble `k % 8` and group `8 q + k / 128`, so the chunk's dequantised slice is rows
  `1024 q …` of the tile's dequantised weights, and the four chunk sums accumulated from zero are the one sum
  over all 4096 features: the tile holds the product of the activations with the dequantised weights at rows
  `2048 i …`, columns `256 j …`.
-/
import proofs.«414776_j49770081026424_3_alg».proof.Proof.KernelBlock
import proofs.«414776_j49770081026424_3_alg».proof.Proof.KernelChunk
import proofs.«414776_j49770081026424_3_alg».proof.Proof.Dequant

noncomputable section

open scoped BigOperators

namespace Cert.KernelIdeal.BodyValue

open Cert.KernelIdeal Cert.KernelIdeal.Gen Cert.KernelIdeal.ChunkValue Cert.Dequant
open Idealize.ShloMosaic Idealize.ShloMosaic.ValueIdx

/-- Where chunk `q`'s slices start in their blocks. -/
theorem actOff (q : Fin 4) : k0_off1 (BitVec.ofNat 32 q.val) = ![0, 1024 * q.val] := by
  fin_cases q <;> (funext a; fin_cases a <;> rfl)
theorem packedOff (q : Fin 4) : k0_off2 (BitVec.ofNat 32 q.val) = ![128 * q.val, 0] := by
  fin_cases q <;> (funext a; fin_cases a <;> rfl)
theorem groupOff (q : Fin 4) : k0_off3 (BitVec.ofNat 32 q.val) = ![8 * q.val, 0] := by
  fin_cases q <;> (funext a; fin_cases a <;> rfl)

/-- Chunk `q`'s slice of the activations block at (r, k) is the block at (r, 1024 q + k). -/
theorem actSlice_apply (x0 : Vec Ideal S2048x4096 .bf16) (q : Fin 4) (r : Fin 2048) (k : Fin 1024) :
    actSlice x0 q (ix2 r k) = x0 (ix2 r ⟨1024 * q.val + k.val, by omega⟩) := by
  show x0 _ = x0 _
  refine congrArg x0 (funext fun a => Fin.ext ?_)
  match a with
  | ⟨0, _⟩ => show k0_off1 (BitVec.ofNat 32 q.val) 0 + 1 * r.val = r.val; rw [actOff]; show 0 + 1 * r.val = r.val; omega
  | ⟨1, _⟩ => show k0_off1 (BitVec.ofNat 32 q.val) 1 + 1 * k.val = 1024 * q.val + k.val; rw [actOff]; show 1024 * q.val + 1 * k.val = _; omega

/-- Chunk `q`'s slice of the packed block at (p, c) is the block at (128 q + p, c). -/
theorem packedSlice_apply (x1 : Vec Ideal S512x256 .i32) (q : Fin 4) (p : Fin 128) (cc : Fin 256) :
    packedSlice x1 q (ix2 p cc) = x1 (ix2 ⟨128 * q.val + p.val, by omega⟩ cc) := by
  show x1 _ = x1 _
  refine congrArg x1 (funext fun a => Fin.ext ?_)
  match a with
  | ⟨0, _⟩ => show k0_off2 (BitVec.ofNat 32 q.val) 0 + 1 * p.val = 128 * q.val + p.val; rw [packedOff]; show 128 * q.val + 1 * p.val = _; omega
  | ⟨1, _⟩ => show k0_off2 (BitVec.ofNat 32 q.val) 1 + 1 * cc.val = cc.val; rw [packedOff]; show 0 + 1 * cc.val = cc.val; omega

/-- Chunk `q`'s slice of the zero-point block at (g, c) is the block at (8 q + g, c). -/
theorem zeroSlice_apply (x2 : Vec Ideal S32x256 .i32) (q : Fin 4) (g : Fin 8) (cc : Fin 256) :
    zeroSlice x2 q (ix2 g cc) = x2 (ix2 ⟨8 * q.val + g.val, by omega⟩ cc) := by
  show x2 _ = x2 _
  refine congrArg x2 (funext fun a => Fin.ext ?_)
  match a with
  | ⟨0, _⟩ => show k0_off3 (BitVec.ofNat 32 q.val) 0 + 1 * g.val = 8 * q.val + g.val; rw [groupOff]; show 8 * q.val + 1 * g.val = _; omega
  | ⟨1, _⟩ => show k0_off3 (BitVec.ofNat 32 q.val) 1 + 1 * cc.val = cc.val; rw [groupOff]; show 0 + 1 * cc.val = cc.val; omega

/-- Chunk `q`'s slice of the scale block at (g, c) is the block at (8 q + g, c). -/
theorem scaleSlice_apply (x3 : Vec Ideal S32x256 .f32) (q : Fin 4) (g : Fin 8) (cc : Fin 256) :
    scaleSlice x3 q (ix2 g cc) = x3 (ix2 ⟨8 * q.val + g.val, by omega⟩ cc) := by
  show x3 _ = x3 _
  refine congrArg x3 (funext fun a => Fin.ext ?_)
  match a with
  | ⟨0, _⟩ => show k0_off3 (BitVec.ofNat 32 q.val) 0 + 1 * g.val = 8 * q.val + g.val; rw [groupOff]; show 8 * q.val + 1 * g.val = _; omega
  | ⟨1, _⟩ => show k0_off3 (BitVec.ofNat 32 q.val) 1 + 1 * cc.val = cc.val; rw [groupOff]; show 0 + 1 * cc.val = cc.val; omega

section Tile

variable (X : (⟨2, ![8192, 4096]⟩ : Shape).Idx → EReal) (QW : IVec ⟨2, ![512, 11008]⟩ 32)
  (Z : IVec ⟨2, ![32, 11008]⟩ 32) (SC : (⟨2, ![32, 11008]⟩ : Shape).Idx → EReal)
  (x0 : Vec Ideal S2048x4096 .bf16) (x1 : Vec Ideal S512x256 .i32) (x2 : Vec Ideal S32x256 .i32) (x3 : Vec Ideal S32x256 .f32)
  (bi : Fin 4) (bj : Fin 43)

/-- Chunk `q`'s dequantised slice at (k, c) is the whole matrix's dequantised weight at feature `1024 q + k` and
    column `256 j + c`, when the staged blocks are column tile `j` of the arrays. -/
theorem chunk_weight
    (h1 : ∀ (p : Fin 512) (cc : Fin 256), x1 (ix2 p cc) = QW (ix2 p ⟨256 * bj.val + cc.val, by omega⟩))
    (h2 : ∀ (g : Fin 32) (cc : Fin 256), x2 (ix2 g cc) = Z (ix2 g ⟨256 * bj.val + cc.val, by omega⟩))
    (h3 : ∀ (g : Fin 32) (cc : Fin 256), x3 (ix2 g cc) = SC (ix2 g ⟨256 * bj.val + cc.val, by omega⟩))
    (q : Fin 4) (k : Fin 1024) (cc : Fin 256) :
    deq (packedSlice x1 q) (zeroSlice x2 q) (scaleSlice x3 q) ⟨k.val / 8, by omega⟩ ⟨k.val % 8, by omega⟩ ⟨k.val / 128, by omega⟩ cc
      = weight QW Z SC ⟨1024 * q.val + k.val, by omega⟩ ⟨256 * bj.val + cc.val, by omega⟩ := by
  unfold weight deq
  rw [packedSlice_apply, zeroSlice_apply, scaleSlice_apply, h1, h2, h3]
  have e8 : (⟨128 * q.val + k.val / 8, by omega⟩ : Fin 512) = ⟨(1024 * q.val + k.val) / 8, by omega⟩ := Fin.ext (by show 128 * q.val + k.val / 8 = (1024 * q.val + k.val) / 8; omega)
  have eg : (⟨8 * q.val + k.val / 128, by omega⟩ : Fin 32) = ⟨(1024 * q.val + k.val) / 128, by omega⟩ := Fin.ext (by show 8 * q.val + k.val / 128 = (1024 * q.val + k.val) / 128; omega)
  have en : (⟨k.val % 8, by omega⟩ : Fin 8) = ⟨(1024 * q.val + k.val) % 8, by omega⟩ := Fin.ext (by show k.val % 8 = (1024 * q.val + k.val) % 8; omega)
  rw [e8, eg, en]

/-- THE TILE: what the body leaves at (r, c) of its output block is the product of the activations with the
    dequantised weights at row `2048 i + r` and column `256 j + c`, when the staged blocks are row block `i` of the
    activations and column tile `j` of the other three arrays. -/
theorem tile_value
    (h0 : ∀ (r : Fin 2048) (k : Fin 4096), x0 (ix2 r k) = X (ix2 ⟨2048 * bi.val + r.val, by omega⟩ k))
    (h1 : ∀ (p : Fin 512) (cc : Fin 256), x1 (ix2 p cc) = QW (ix2 p ⟨256 * bj.val + cc.val, by omega⟩))
    (h2 : ∀ (g : Fin 32) (cc : Fin 256), x2 (ix2 g cc) = Z (ix2 g ⟨256 * bj.val + cc.val, by omega⟩))
    (h3 : ∀ (g : Fin 32) (cc : Fin 256), x3 (ix2 g cc) = SC (ix2 g ⟨256 * bj.val + cc.val, by omega⟩))
    (r : Fin 2048) (cc : Fin 256) :
    k0_pay1 k0_pay2 (actSlice x0 3) (packedSlice x1 3) (zeroSlice x2 3) (scaleSlice x3 3)
        (k0_pay6 k0_pay2 (actSlice x0 2) (packedSlice x1 2) (zeroSlice x2 2) (scaleSlice x3 2)
          (k0_pay5 k0_pay2 (actSlice x0 1) (packedSlice x1 1) (zeroSlice x2 1) (scaleSlice x3 1)
            (k0_pay4 (actSlice x0 0) (packedSlice x1 0) (zeroSlice x2 0) (scaleSlice x3 0) (k0_pay3 (F := Ideal))))) (ix2 r cc)
      = matProd X QW Z SC (ix2 ⟨2048 * bi.val + r.val, by omega⟩ ⟨256 * bj.val + cc.val, by omega⟩) := by
  rw [chunk1_apply, chunk6_apply, chunk5_apply, chunk4_apply, zero_apply]
  have hterm : ∀ (q : Fin 4) (k : Fin 1024) (kk : Fin 4096), kk.val = 1024 * q.val + k.val →
      actSlice x0 q (ix2 r k) * deq (packedSlice x1 q) (zeroSlice x2 q) (scaleSlice x3 q) ⟨k.val / 8, by omega⟩ ⟨k.val % 8, by omega⟩ ⟨k.val / 128, by omega⟩ cc
        = X (ix2 ⟨2048 * bi.val + r.val, by omega⟩ kk) * weight QW Z SC kk ⟨256 * bj.val + cc.val, by omega⟩ := fun q k kk hk => by
    obtain ⟨kv, hkv⟩ := kk
    dsimp only at hk
    subst hk
    rw [actSlice_apply, h0, chunk_weight QW Z SC x1 x2 x3 bj h1 h2 h3]
  show _ = ∑ k : Fin 4096, X (ix2 ⟨2048 * bi.val + r.val, by omega⟩ k) * weight QW Z SC k ⟨256 * bj.val + cc.val, by omega⟩
  rw [sum_chunks]
  refine congrArg₂ (· + ·) (congrArg₂ (· + ·) (congrArg₂ (· + ·) (congrArg (0 + ·) ?_) ?_) ?_) ?_
  · exact Finset.sum_congr rfl fun k _ => hterm 0 k _ (by show k.val = 1024 * 0 + k.val; omega)
  · exact Finset.sum_congr rfl fun k _ => hterm 1 k _ (by show 1024 + k.val = 1024 * 1 + k.val; omega)
  · exact Finset.sum_congr rfl fun k _ => hterm 2 k _ (by show 2048 + k.val = 1024 * 2 + k.val; omega)
  · exact Finset.sum_congr rfl fun k _ => hterm 3 k _ (by show 3072 + k.val = 1024 * 3 + k.val; omega)

end Tile

end Cert.KernelIdeal.BodyValue

end
-- ==== Proof.KernelArray.lean ====
/-
  The kernel program's result as a function of its arguments.

  The output array [8192, 11008] is tiled by the grid's 4 × 43 blocks of [2048, 256]; point (i, j) writes back
  its block, which holds (KernelTile) the product of the activations with the dequantised weights at rows
  `2048 i …`, columns `256 j …`. Every element lies in exactly the block (row / 2048, column / 256), so after the
  run the array is that product everywhere. Before the region the host reshapes the activations [4, 2048, 4096]
  to [8192, 4096] (row `2048 b + s`) and unpacks the zero points (column `o` is nibble `o % 8` of packed column
  `o / 8`, plus one); after it the host reshapes the product back to [4, 2048, 11008]. So the result at
  (b, s, o) is the sum over the features `k` of `x[b, s, k]` times the dequantised weight at (k, o).
-/
import proofs.«414776_j49770081026424_3_alg».proof.Proof.KernelTile
import Idealize.ShloMosaic.Lib.ValueLayout
import Idealize.ShloMosaic.Lib.StableHlo.Run

set_option maxRecDepth 16384

noncomputable section

open scoped BigOperators

namespace Cert.KernelIdeal.ArrayValue

open Cert.KernelIdeal Cert.KernelIdeal.Gen Cert.KernelIdeal.BodyValue Cert.Dequant
open Idealize.ShloMosaic Idealize.ShloMosaic.TcCoe Idealize.ShloMosaic.Tactic Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## The arrays the region finds, at their literal types -/

abbrev actArr (c : Dev nD) : (⟨2, ![8192, 4096]⟩ : Shape).Idx → EReal := V m c main_v1
abbrev packedArr (c : Dev nD) : IVec ⟨2, ![512, 11008]⟩ 32 := V m c main_arg1
abbrev zeroArr (c : Dev nD) : IVec ⟨2, ![32, 11008]⟩ 32 := V m c main_v14
abbrev scaleArr (c : Dev nD) : (⟨2, ![32, 11008]⟩ : Shape).Idx → EReal := V m c main_arg3

/-- The product the output array ends holding, of the arrays as the region finds them. -/
abbrev prodArr (c : Dev nD) : (⟨2, ![8192, 11008]⟩ : Shape).Idx → EReal :=
  matProd (actArr m c) (packedArr m c) (zeroArr m c) (scaleArr m c)

/-! ## The grid: which blocks a point stages -/

/-- At every grid point the activations' block is the output's row block at column block 0, the other three
    inputs' blocks are the output's column tile at row block 0, and the output's block indices are in range. -/
theorem idx_facts : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = win0_4.index t (1 : Fin 2)
    ∧ win0_2.index t (0 : Fin 2) = 0 ∧ win0_2.index t (1 : Fin 2) = win0_4.index t (1 : Fin 2)
    ∧ win0_3.index t (0 : Fin 2) = 0 ∧ win0_3.index t (1 : Fin 2) = win0_4.index t (1 : Fin 2)
    ∧ win0_4.index t (0 : Fin 2) < 4 ∧ win0_4.index t (1 : Fin 2) < 43 :=
  (by decide +kernel : ∀ t : Fin grid0.N, _)

/-- Every (row block, column tile) pair is some point's. -/
theorem idx_onto : ∀ (q0 : Fin 4) (q1 : Fin 43), ∃ t : Fin cfg0.N, win0_4.index t = ![q0.val, q1.val] :=
  (by decide +kernel : ∀ (q0 : Fin 4) (q1 : Fin 43), ∃ t : Fin grid0.N, win0_4.index t = ![q0.val, q1.val])

/-- Point `t`'s row block and column tile. -/
def rowBlk (t : Fin cfg0.N) : Fin 4 := ⟨win0_4.index t (0 : Fin 2), (idx_facts t).2.2.2.2.2.2.2.2.1⟩
def colBlk (t : Fin cfg0.N) : Fin 43 := ⟨win0_4.index t (1 : Fin 2), (idx_facts t).2.2.2.2.2.2.2.2.2⟩

/-! ## The staged blocks are blocks of the arrays -/

theorem act_read (c : Dev nD) (t : Fin cfg0.N) (r : Fin 2048) (k : Fin 4096) :
    iblk m c 0 t (ix2 r k) = actArr m c (ix2 ⟨2048 * (rowBlk t).val + r.val, by omega⟩ k) := by
  show V m c main_v1 (((cfg0.win 0).blk t).view.emb (ix2 r k)) = V m c main_v1 _
  refine congrArg (V m c main_v1) (funext fun a => Fin.ext ?_)
  obtain ⟨e0, e1, -⟩ := idx_facts t
  match a with
  | ⟨0, _⟩ => show win0_0.index t (0 : Fin 2) * 2048 + 1 * r.val = 2048 * win0_4.index t (0 : Fin 2) + r.val; omega
  | ⟨1, _⟩ => show win0_0.index t (1 : Fin 2) * 4096 + 1 * k.val = k.val; omega

theorem packed_read (c : Dev nD) (t : Fin cfg0.N) (p : Fin 512) (cc : Fin 256) :
    iblk m c 1 t (ix2 p cc) = packedArr m c (ix2 p ⟨256 * (colBlk t).val + cc.val, by omega⟩) := by
  show V m c main_arg1 (((cfg0.win 1).blk t).view.emb (ix2 p cc)) = V m c main_arg1 _
  refine congrArg (V m c main_arg1) (funext fun a => Fin.ext ?_)
  obtain ⟨-, -, e0, e1, -⟩ := idx_facts t
  match a with
  | ⟨0, _⟩ => show win0_1.index t (0 : Fin 2) * 512 + 1 * p.val = p.val; omega
  | ⟨1, _⟩ => show win0_1.index t (1 : Fin 2) * 256 + 1 * cc.val = 256 * win0_4.index t (1 : Fin 2) + cc.val; omega

theorem zero_read (c : Dev nD) (t : Fin cfg0.N) (g : Fin 32) (cc : Fin 256) :
    iblk m c 2 t (ix2 g cc) = zeroArr m c (ix2 g ⟨256 * (colBlk t).val + cc.val, by omega⟩) := by
  show V m c main_v14 (((cfg0.win 2).blk t).view.emb (ix2 g cc)) = V m c main_v14 _
  refine congrArg (V m c main_v14) (funext fun a => Fin.ext ?_)
  obtain ⟨-, -, -, -, e0, e1, -⟩ := idx_facts t
  match a with
  | ⟨0, _⟩ => show win0_2.index t (0 : Fin 2) * 32 + 1 * g.val = g.val; omega
  | ⟨1, _⟩ => show win0_2.index t (1 : Fin 2) * 256 + 1 * cc.val = 256 * win0_4.index t (1 : Fin 2) + cc.val; omega

theorem scale_read (c : Dev nD) (t : Fin cfg0.N) (g : Fin 32) (cc : Fin 256) :
    iblk m c 3 t (ix2 g cc) = scaleArr m c (ix2 g ⟨256 * (colBlk t).val + cc.val, by omega⟩) := by
  show V m c main_arg3 (((cfg0.win 3).blk t).view.emb (ix2 g cc)) = V m c main_arg3 _
  refine congrArg (V m c main_arg3) (funext fun a => Fin.ext ?_)
  obtain ⟨-, -, -, -, -, -, e0, e1, -⟩ := idx_facts t
  match a with
  | ⟨0, _⟩ => show win0_3.index t (0 : Fin 2) * 32 + 1 * g.val = g.val; omega
  | ⟨1, _⟩ => show win0_3.index t (1 : Fin 2) * 256 + 1 * cc.val = 256 * win0_4.index t (1 : Fin 2) + cc.val; omega

/-! ## What a point writes back, and the array after the run -/

/-- WHAT POINT `t` WRITES BACK is block `t` of the product array. -/
theorem flushed_eq (c : Dev nD) (t : Fin cfg0.N) :
    (dats m 0 c).flushed 4 t = ((cfg0.win 4).blk t).view.read (Elt Ideal) (prodArr m c) := by
  show (cfg0.win 4).cut (grid0.coords t) ((dats m 0 c).after 4 t) = _
  rw [after0_4]
  unfold outsAt0
  rw [block_eq]
  refine funext fun (j : S2048x256.Idx) => ?_
  obtain ⟨r, cc, rfl⟩ : ∃ (r : Fin 2048) (cc : Fin 256), j = ix2 r cc := ⟨j 0, j 1, eq_ix2 j⟩
  refine (tile_value (actArr m c) (packedArr m c) (zeroArr m c) (scaleArr m c) (iblk m c 0 t) (iblk m c 1 t) (iblk m c 2 t) (iblk m c 3 t)
    (rowBlk t) (colBlk t) (act_read m c t) (packed_read m c t) (zero_read m c t) (scale_read m c t) r cc).trans ?_
  show prodArr m c _ = prodArr m c (((cfg0.win 4).blk t).view.emb (ix2 r cc))
  refine congrArg (prodArr m c) (funext fun a => Fin.ext ?_)
  match a with
  | ⟨0, _⟩ => show 2048 * win0_4.index t (0 : Fin 2) + r.val = win0_4.index t (0 : Fin 2) * 2048 + 1 * r.val; omega
  | ⟨1, _⟩ => show 256 * win0_4.index t (1 : Fin 2) + cc.val = win0_4.index t (1 : Fin 2) * 256 + 1 * cc.val; omega

/-- An element is in point `t`'s block iff each coordinate is in the block's range on its axis. -/
theorem mem_blk (t : Fin cfg0.N) (i : S8192x11008.Idx) :
    i ∈ ((cfg0.win 4).blk t).view.set ↔ ∀ a : Fin 2, win0_4.index t a * S2048x256.size a ≤ (i a).val ∧ (i a).val < win0_4.index t a * S2048x256.size a + S2048x256.size a := by
  show i ∈ ((View.whole main_v15).slice (win0_4.rect t)).set ↔ _
  rw [View.set_slice_whole, Rect.mem_set_unit]
  exact Iff.rfl

/-- Every element of the output array is in some point's block: the point of its row block and column tile. -/
theorem cover (i : S8192x11008.Idx) : ∃ t : Fin cfg0.N, (cfg0.win 4).flush t = true ∧ i ∈ ((cfg0.win 4).blk t).view.set := by
  have hi0 : (i 0).val < 8192 := (i 0).isLt
  have hi1 : (i 1).val < 11008 := (i 1).isLt
  obtain ⟨t, ht⟩ := idx_onto ⟨(i 0).val / 2048, by omega⟩ ⟨(i 1).val / 256, by omega⟩
  have q0 : win0_4.index t (0 : Fin 2) = (i 0).val / 2048 := congrFun ht 0
  have q1 : win0_4.index t (1 : Fin 2) = (i 1).val / 256 := congrFun ht 1
  refine ⟨t, flush0_4 t, ?_⟩
  rw [mem_blk]
  intro a
  match a with
  | ⟨0, _⟩ => show win0_4.index t (0 : Fin 2) * 2048 ≤ (i 0).val ∧ (i 0).val < win0_4.index t (0 : Fin 2) * 2048 + 2048; omega
  | ⟨1, _⟩ => show win0_4.index t (1 : Fin 2) * 256 ≤ (i 1).val ∧ (i 1).val < win0_4.index t (1 : Fin 2) * 256 + 256; omega

/-- THE OUTPUT ARRAY after the run is the product array. -/
theorem final (c : Dev nD) : (dats m 0 c).arrAt 4 cfg0.N = prodArr m c :=
  (dats m 0 c).arrAt_eq_of_cover 4 (prodArr m c) (fun t _ => flushed_eq m c t) (cover)

end Cert.KernelIdeal.ArrayValue

end
-- ==== Proof.KernelResult.lean ====
/-
  The kernel program's result, [4, 2048, 11008], is the layer's output of the four argument arrays.

  The region leaves the product array [8192, 11008] (KernelArray) of the arrays as it finds them. Those are: the
  activations reshaped, row `2048 b + s` holding `x[b, s, ·]` (the change of float format is the identity on the
  extended reals); the packed weights and the scales as launched; and the zero points unpacked by the host —
  entry (g, o) is nibble `o % 8` of packed word (g, o / 8), plus one, the host's shift by `4 (o % 8)` being the
  vector unit's. The host's last reshape reads row `2048 b + s` back at (b, s). So the result at (b, s, o) is the sum
  over the features `k` of `x[b, s, k]` times the dequantised weight at (k, o).
-/
import proofs.«414776_j49770081026424_3_alg».proof.Proof.KernelArray

set_option maxRecDepth 16384

noncomputable section

open scoped BigOperators

namespace Cert.KernelIdeal.ResultValue

open Cert.KernelIdeal Cert.KernelIdeal.Gen Cert.KernelIdeal.ArrayValue Cert.Dequant
open Idealize.ShloMosaic Idealize.ShloMosaic.TcCoe Idealize.ShloMosaic.Tactic Idealize.ShloMosaic.ValueIdx
open Idealize.SL Idealize.SL.Sem Idealize.ShloMosaic.StableHlo
open Idealize.ShloMosaic.Pipeline (Dat Cfg Window)

variable (m : (ℓ : Loc nD τ sig) → Buf (Elt Ideal) ℓ) (ρ : Dev nD → PrngReg)

/-- The product array over the reshaped activations and the unpacked zero points, read at row `2048 b + s`, is the
    layer's output at (b, s, ·). -/
theorem output_of (X : (⟨2, ![8192, 4096]⟩ : Shape).Idx → EReal) (QW : IVec ⟨2, ![512, 11008]⟩ 32) (Z : IVec ⟨2, ![32, 11008]⟩ 32)
    (SC : (⟨2, ![32, 11008]⟩ : Shape).Idx → EReal) (x : (⟨3, ![4, 2048, 4096]⟩ : Shape).Idx → EReal) (qw : IVec ⟨2, ![512, 11008]⟩ 32)
    (qz : IVec ⟨2, ![32, 1376]⟩ 32) (sc : (⟨2, ![32, 11008]⟩ : Shape).Idx → EReal)
    (hX : ∀ (b : Fin 4) (s : Fin 2048) (k : Fin 4096), X (ix2 ⟨2048 * b.val + s.val, by omega⟩ k) = x (ix3 b s k))
    (hQW : QW = qw) (hZ : Z = zeroPlusOneArr qz) (hSC : SC = sc) (b : Fin 4) (s : Fin 2048) (o : Fin 11008) :
    matProd X QW Z SC (ix2 ⟨2048 * b.val + s.val, by omega⟩ o) = output x qw qz sc (ix3 b s o) := by
  subst hQW hZ hSC
  show ∑ k : Fin 4096, X (ix2 ⟨2048 * b.val + s.val, _⟩ k) * weight QW (zeroPlusOneArr qz) SC k o
    = ∑ k : Fin 4096, x (ix3 b s k) * weight QW (zeroPlusOneArr qz) SC k o
  exact Finset.sum_congr rfl fun k _ => by rw [hX]

/-- The activations as the region finds them: row `2048 b + s` of the reshaped array is `x[b, s, ·]`. -/
theorem actArr_apply (c : Dev nD) (b : Fin 4) (s : Fin 2048) (k : Fin 4096) :
    actArr m c (ix2 ⟨2048 * b.val + s.val, by omega⟩ k) = m ((c : Thread nD τ).loc main_arg0) (ix3 b s k) := by
  have e : actArr m c = truncf (F := Ideal) .bf16 (shapeCast S8192x4096 (m (c, Proc.devRef .tc main_arg0)) Facts₀.shapeCasts_S4x2048x4096_S8192x4096) Facts₀.bitsLt_bf16_f32 := by
    show StableHlo.after (hostOps0 (F := Ideal)) (fun b => m (c, b)) (Proc.devRef .tc main_v1) = _
    after_results
    rfl
  rw [e, truncf_apply]
  exact shapeCast_apply _ _ _ _ (by
    show (S4x2048x4096.rowMajor (ix3 b s k)).val = (S8192x4096.rowMajor (ix2 ⟨2048 * b.val + s.val, by omega⟩ k)).val
    rw [Shape.rowMajor_val_three, Shape.rowMajor_val_two]
    show (b.val * 2048 + s.val) * 4096 + k.val = (2048 * b.val + s.val) * 4096 + k.val
    omega)

/-- The zero points as the region finds them: the host's unpacking is `zeroPlusOneArr` of the packed argument. -/
theorem zeroArr_eq (c : Dev nD) : zeroArr m c = zeroPlusOneArr (m ((c : Thread nD τ).loc main_arg2)) := by
  have e : zeroArr m c = addi (shapeCast S32x11008 (andi (Host.shrsi
        (broadcastInDim S32x1376x8 ![0, 1, 2] Facts₀.bcast_S32x1376x1_S32x1376x8_0_1_2 (broadcastInDim S32x1376x1 ![0, 1] Facts₀.bcast_S32x1376_S32x1376x1_0_1 (m (c, Proc.devRef .tc main_arg2))))
        (broadcastInDim S32x1376x8 ![0, 1, 2] Facts₀.bcast_S1x1x8_S32x1376x8_0_1_2 (broadcastInDim S1x1x8 ![2] Facts₀.bcast_S8_S1x1x8_2
          (muli (iotaInDim S8 32 0) (broadcastInDim S8 ![] Facts₀.bcast_S_S8 (constantI S_ 32 4#32))))))
        (broadcastInDim S32x1376x8 ![] Facts₀.bcast_S_S32x1376x8 (constantI S_ 32 15#32))) Facts₀.shapeCasts_S32x1376x8_S32x11008)
      (broadcastInDim S32x11008 ![] Facts₀.bcast_S_S32x11008 (constantI S_ 32 1#32)) := by
    show StableHlo.after (hostOps0 (F := Ideal)) (fun b => m (c, b)) (Proc.devRef .tc main_v14) = _
    after_results
    rfl
  rw [e]
  funext i
  obtain ⟨g, o, rfl⟩ : ∃ (g : Fin 32) (o : Fin 11008), i = ix2 g o := ⟨i 0, i 1, eq_ix2 i⟩
  show IntOp.addi (shapeCast S32x11008 _ _ (ix2 g o)) 1#32 = zeroPlusOne _ g o
  rw [shapeCast_apply _ _ (ix2 g o) (ix3 g (⟨o.val / 8, by omega⟩ : Fin 1376) (⟨o.val % 8, by omega⟩ : Fin 8)) (by
    rw [Shape.rowMajor_val_three, Shape.rowMajor_val_two]
    show (g.val * 1376 + o.val / 8) * 8 + o.val % 8 = g.val * 11008 + o.val
    omega)]
  show IntOp.addi (IntOp.andi (IntOp.shrsi .host
      (broadcastInDim S32x1376x8 ![0, 1, 2] _ (broadcastInDim S32x1376x1 ![0, 1] _ (m (c, Proc.devRef .tc main_arg2))) (ix3 g ⟨o.val / 8, _⟩ ⟨o.val % 8, _⟩))
      (broadcastInDim S32x1376x8 ![0, 1, 2] _ (broadcastInDim S1x1x8 ![2] _ (muli (iotaInDim S8 32 0) (broadcastInDim S8 ![] _ (constantI S_ 32 4#32)))) (ix3 g ⟨o.val / 8, _⟩ ⟨o.val % 8, _⟩))) 15#32) 1#32 = _
  rw [broadcastInDim_apply _ _ _ (ix3 g ⟨o.val / 8, _⟩ ⟨o.val % 8, _⟩) (ix3 g (⟨o.val / 8, by omega⟩ : Fin 1376) (0 : Fin 1)) (fun a => by
      match a with
      | ⟨0, _⟩ => rfl
      | ⟨1, _⟩ => rfl
      | ⟨2, _⟩ => rfl),
    broadcastInDim_apply _ _ _ (ix3 g (⟨o.val / 8, by omega⟩ : Fin 1376) (0 : Fin 1)) (ix2 g (⟨o.val / 8, by omega⟩ : Fin 1376)) (fun a => by
      match a with
      | ⟨0, _⟩ => rfl
      | ⟨1, _⟩ => rfl),
    broadcastInDim_apply _ _ _ (ix3 g ⟨o.val / 8, _⟩ ⟨o.val % 8, _⟩) (ix3 (0 : Fin 1) (0 : Fin 1) (⟨o.val % 8, by omega⟩ : Fin 8)) (fun a => by
      match a with
      | ⟨0, _⟩ => rfl
      | ⟨1, _⟩ => rfl
      | ⟨2, _⟩ => rfl),
    broadcastInDim_apply _ _ _ (ix3 (0 : Fin 1) (0 : Fin 1) (⟨o.val % 8, by omega⟩ : Fin 8)) (ix1 (⟨o.val % 8, by omega⟩ : Fin 8)) (fun a => by
      match a with
      | ⟨0, _⟩ => rfl)]
  show IntOp.addi (IntOp.andi (IntOp.shrsi .host _ (shiftOf ⟨o.val % 8, _⟩)) 15#32) 1#32 = _
  rw [shrsi_host]
  rfl

/-- THE RESULT: what the host's last reshape leaves is the layer's output of the argument arrays. -/
theorem result_eq (c : Dev nD) :
    Pipeline.afterTail₀ cfgs (dats m) 0 (V0 m) [hostOps1] c main_v16
      = output (m ((c : Thread nD τ).loc main_arg0)) (m ((c : Thread nD τ).loc main_arg1)) (m ((c : Thread nD τ).loc main_arg2)) (m ((c : Thread nD τ).loc main_arg3)) := by
  have e : Pipeline.afterTail₀ cfgs (dats m) 0 (V0 m) [hostOps1] c main_v16
      = shapeCast S4x2048x11008 (Pipeline.withArrays (cfgs 0).spec c (V0 m c) (fun w => (dats m 0 c).arrAt w (cfgs 0).N) (Proc.devRef .tc main_v15))
          Facts₀.shapeCasts_S8192x11008_S4x2048x11008 := by
    unfold Pipeline.afterTail₀
    show StableHlo.after (hostOps1 (F := Ideal)) _ (Proc.devRef .tc main_v16) = _
    after_results
    rfl
  have ew : Pipeline.withArrays (cfgs 0).spec c (V0 m c) (fun w => (dats m 0 c).arrAt w (cfgs 0).N) (Proc.devRef .tc main_v15) = prodArr m c :=
    (Pipeline.withArrays_arr spec0 launch0.win.arr_inj c _ _ 4).trans (final m c)
  rw [e, ew]
  funext i
  obtain ⟨b, s, o, rfl⟩ : ∃ (b : Fin 4) (s : Fin 2048) (o : Fin 11008), i = ix3 b s o := ⟨i 0, i 1, i 2, eq_ix3 i⟩
  refine (shapeCast_apply _ _ (ix3 b s o) (ix2 (⟨2048 * b.val + s.val, by omega⟩ : Fin 8192) o) (by
    show (S8192x11008.rowMajor (ix2 ⟨2048 * b.val + s.val, by omega⟩ o)).val = (S4x2048x11008.rowMajor (ix3 b s o)).val
    rw [Shape.rowMajor_val_three, Shape.rowMajor_val_two]
    show (2048 * b.val + s.val) * 11008 + o.val = (b.val * 2048 + s.val) * 11008 + o.val
    omega)).trans ?_
  exact output_of (actArr m c) (packedArr m c) (zeroArr m c) (scaleArr m c) _ _ _ _ (actArr_apply m c) (V_main_arg1 m c) (zeroArr_eq m c) (V_main_arg3 m c) b s o

/-- THE RUN of the kernel program, read: every weakly fair execution terminates with the result at the layer's
    output of the argument arrays, and the arguments unchanged. -/
theorem run : θ_run (defs (F := Ideal)) (onTc (τ := τ) (main (F := Ideal))) ⟨m, fun _ => 0, ρ⟩ fun r => ∀ c : Dev nD,
      r.2.mem ((c.tc : Thread nD τ).loc main_v16) = output (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).2 main_v16 (Pipeline.mem_restRefs_of main_v16 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c)))⟩) (run_main m ρ)

end Cert.KernelIdeal.ResultValue

end
-- ==== Proof.RefRun.lean ====
/-
  The reference program's run, read back. Its @main is a straight line of 32 host operations: the packed
  weights and the packed zero points are each unpacked into nibbles (broadcast against the table of shifts
  0, 4, …, 28, shifted right, masked with 15, reshaped), the zero points are increased by one, the difference
  is converted to a float and multiplied by the scales group by group, and the activations are contracted
  with the resulting [4096, 11008] matrix. Every weakly fair execution terminates with the result buffer at
  the composition of these operations applied to the four argument buffers (`refTerm`), the arguments unchanged.
-/
import proofs.«414776_j49770081026424_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The composed term -/

/-- The table of nibble shifts, as the length-8 array the program's constant holds. -/
def shifts : IVec S8 32 := fun i => lit0 (S8.rowMajor i)

/-- The weights unpacked: packed word (p, o) against shift j, shifted and masked, at (p, j, o); then the
    [512, 8, 11008] array read as [4096, 11008]. -/
def nibblesW (qw : IVec S512x11008 32) : IVec S4096x11008 32 :=
  shapeCast S4096x11008
    (andi
      (Host.shrsi
        (broadcastInDim S512x8x11008 ![0, 1, 2] bcast_S512x1x11008_S512x8x11008_0_1_2
          (broadcastInDim S512x1x11008 ![0, 2] bcast_S512x11008_S512x1x11008_0_2 qw))
        (broadcastInDim S512x8x11008 ![0, 1, 2] bcast_S1x8x1_S512x8x11008_0_1_2
          (broadcastInDim S1x8x1 ![1] bcast_S8_S1x8x1_1 shifts)))
      (broadcastInDim S512x8x11008 ![] bcast_S_S512x8x11008 (constantI S_ 32 15#32)))
    shapeCasts_S512x8x11008_S4096x11008

/-- The zero points unpacked and increased by one: packed word (g, q) against shift j, shifted and masked, at
    (g, q, j); the [32, 1376, 8] array read as [32, 11008]; plus one. -/
def zerosPlusOne (qz : IVec S32x1376 32) : IVec S32x11008 32 :=
  addi
    (shapeCast S32x11008
      (andi
        (Host.shrsi
          (broadcastInDim S32x1376x8 ![0, 1, 2] bcast_S32x1376x1_S32x1376x8_0_1_2
            (broadcastInDim S32x1376x1 ![0, 1] bcast_S32x1376_S32x1376x1_0_1 qz))
          (broadcastInDim S32x1376x8 ![0, 1, 2] bcast_S1x1x8_S32x1376x8_0_1_2
            (broadcastInDim S1x1x8 ![2] bcast_S8_S1x1x8_2 shifts)))
        (broadcastInDim S32x1376x8 ![] bcast_S_S32x1376x8 (constantI S_ 32 15#32)))
      shapeCasts_S32x1376x8_S32x11008)
    (broadcastInDim S32x11008 ![] bcast_S_S32x11008 (constantI S_ 32 1#32))

/-- The dequantised weight matrix: the nibbles in 32 groups of 128 rows, less the group's zero points plus one,
    converted, times the group's scales; read back as [4096, 11008]. -/
def weightTerm (qw : IVec S512x11008 32) (qz : IVec S32x1376 32) (sc : (⟨S32x11008, .f32⟩ : BufTy).Contents (Elt F)) :
    (⟨S4096x11008, .f32⟩ : BufTy).Contents (Elt F) :=
  shapeCast S4096x11008
    (mulf
      (sitofp .f32
        (subi
          (shapeCast S32x128x11008 (nibblesW qw) shapeCasts_S4096x11008_S32x128x11008)
          (broadcastInDim S32x128x11008 ![0, 1, 2] bcast_S32x1x11008_S32x128x11008_0_1_2
            (broadcastInDim S32x1x11008 ![0, 2] bcast_S32x11008_S32x1x11008_0_2 (zerosPlusOne qz)))) :
        (⟨S32x128x11008, .f32⟩ : BufTy).Contents (Elt F))
      (broadcastInDim S32x128x11008 ![0, 1, 2] bcast_S32x1x11008_S32x128x11008_0_1_2
        (broadcastInDim S32x1x11008 ![0, 2] bcast_S32x11008_S32x1x11008_0_2 sc)))
    shapeCasts_S32x128x11008_S4096x11008

/-- The program's result as a term of its four arguments: the activations contracted with the dequantised weights. -/
def refTerm (x : (⟨S4x2048x4096, .f32⟩ : BufTy).Contents (Elt F)) (qw : IVec S512x11008 32) (qz : IVec S32x1376 32)
    (sc : (⟨S32x11008, .f32⟩ : BufTy).Contents (Elt F)) : (⟨S4x2048x11008, .f32⟩ : BufTy).Contents (Elt F) :=
  Host.dotGeneral dot_S4x2048x4096_S4096x11008_S4x2048x11008_2_0_01_1_n_n none x (weightTerm qw qz sc)

/-! ## The run -/

/-- @main's 32 operations, in order. -/
abbrev ops : List (HloOp τ sig (Elt F)) :=
  [
    nullary main_c (fun i => lit0 (S8.rowMajor i)),
    unary main_arg1 main_v0 (broadcastInDim S512x1x11008 ![0, 2] bcast_S512x11008_S512x1x11008_0_2 : (⟨S512x11008, .i32⟩ : BufTy).Contents (Elt F) → (⟨S512x1x11008, .i32⟩ : BufTy).Contents (Elt F)),
    unary main_c main_v1 (broadcastInDim S1x8x1 ![1] bcast_S8_S1x8x1_1 : (⟨S8, .i32⟩ : BufTy).Contents (Elt F) → (⟨S1x8x1, .i32⟩ : BufTy).Contents (Elt F)),
    unary main_v0 main_v2 (broadcastInDim S512x8x11008 ![0, 1, 2] bcast_S512x1x11008_S512x8x11008_0_1_2 : (⟨S512x1x11008, .i32⟩ : BufTy).Contents (Elt F) → (⟨S512x8x11008, .i32⟩ : BufTy).Contents (Elt F)),
    unary main_v1 main_v3 (broadcastInDim S512x8x11008 ![0, 1, 2] bcast_S1x8x1_S512x8x11008_0_1_2 : (⟨S1x8x1, .i32⟩ : BufTy).Contents (Elt F) → (⟨S512x8x11008, .i32⟩ : BufTy).Contents (Elt F)),
    binary main_v2 main_v3 main_v4 (Host.shrsi : (⟨S512x8x11008, .i32⟩ : BufTy).Contents (Elt F) → (⟨S512x8x11008, .i32⟩ : BufTy).Contents (Elt F) → (⟨S512x8x11008, .i32⟩ : BufTy).Contents (Elt F)),
    nullary main_c_0 (constantI S_ 32 15#32),
    unary main_c_0 main_v5 (broadcastInDim S512x8x11008 ![] bcast_S_S512x8x11008 : (⟨S_, .i32⟩ : BufTy).Contents (Elt F) → (⟨S512x8x11008, .i32⟩ : BufTy).Contents (Elt F)),
    binary main_v4 main_v5 main_v6 (andi : (⟨S512x8x11008, .i32⟩ : BufTy).Contents (Elt F) → (⟨S512x8x11008, .i32⟩ : BufTy).Contents (Elt F) → (⟨S512x8x11008, .i32⟩ : BufTy).Contents (Elt F)),
    reshape main_v6 main_v7 rfl shapeCasts_S512x8x11008_S4096x11008,
    unary main_arg2 main_v8 (broadcastInDim S32x1376x1 ![0, 1] bcast_S32x1376_S32x1376x1_0_1 : (⟨S32x1376, .i32⟩ : BufTy).Contents (Elt F) → (⟨S32x1376x1, .i32⟩ : BufTy).Contents (Elt F)),
    unary main_c main_v9 (broadcastInDim S1x1x8 ![2] bcast_S8_S1x1x8_2 : (⟨S8, .i32⟩ : BufTy).Contents (Elt F) → (⟨S1x1x8, .i32⟩ : BufTy).Contents (Elt F)),
    unary main_v8 main_v10 (broadcastInDim S32x1376x8 ![0, 1, 2] bcast_S32x1376x1_S32x1376x8_0_1_2 : (⟨S32x1376x1, .i32⟩ : BufTy).Contents (Elt F) → (⟨S32x1376x8, .i32⟩ : BufTy).Contents (Elt F)),
    unary main_v9 main_v11 (broadcastInDim S32x1376x8 ![0, 1, 2] bcast_S1x1x8_S32x1376x8_0_1_2 : (⟨S1x1x8, .i32⟩ : BufTy).Contents (Elt F) → (⟨S32x1376x8, .i32⟩ : BufTy).Contents (Elt F)),
    binary main_v10 main_v11 main_v12 (Host.shrsi : (⟨S32x1376x8, .i32⟩ : BufTy).Contents (Elt F) → (⟨S32x1376x8, .i32⟩ : BufTy).Contents (Elt F) → (⟨S32x1376x8, .i32⟩ : BufTy).Contents (Elt F)),
    nullary main_c_1 (constantI S_ 32 15#32),
    unary main_c_1 main_v13 (broadcastInDim S32x1376x8 ![] bcast_S_S32x1376x8 : (⟨S_, .i32⟩ : BufTy).Contents (Elt F) → (⟨S32x1376x8, .i32⟩ : BufTy).Contents (Elt F)),
    binary main_v12 main_v13 main_v14 (andi : (⟨S32x1376x8, .i32⟩ : BufTy).Contents (Elt F) → (⟨S32x1376x8, .i32⟩ : BufTy).Contents (Elt F) → (⟨S32x1376x8, .i32⟩ : BufTy).Contents (Elt F)),
    reshape main_v14 main_v15 rfl shapeCasts_S32x1376x8_S32x11008,
    nullary main_c_2 (constantI S_ 32 1#32),
    unary main_c_2 main_v16 (broadcastInDim S32x11008 ![] bcast_S_S32x11008 : (⟨S_, .i32⟩ : BufTy).Contents (Elt F) → (⟨S32x11008, .i32⟩ : BufTy).Contents (Elt F)),
    binary main_v15 main_v16 main_v17 (addi : (⟨S32x11008, .i32⟩ : BufTy).Contents (Elt F) → (⟨S32x11008, .i32⟩ : BufTy).Contents (Elt F) → (⟨S32x11008, .i32⟩ : BufTy).Contents (Elt F)),
    reshape main_v7 main_v18 rfl shapeCasts_S4096x11008_S32x128x11008,
    unary main_v17 main_v19 (broadcastInDim S32x1x11008 ![0, 2] bcast_S32x11008_S32x1x11008_0_2 : (⟨S32x11008, .i32⟩ : BufTy).Contents (Elt F) → (⟨S32x1x11008, .i32⟩ : BufTy).Contents (Elt F)),
    unary main_v19 main_v20 (broadcastInDim S32x128x11008 ![0, 1, 2] bcast_S32x1x11008_S32x128x11008_0_1_2 : (⟨S32x1x11008, .i32⟩ : BufTy).Contents (Elt F) → (⟨S32x128x11008, .i32⟩ : BufTy).Contents (Elt F)),
    binary main_v18 main_v20 main_v21 (subi : (⟨S32x128x11008, .i32⟩ : BufTy).Contents (Elt F) → (⟨S32x128x11008, .i32⟩ : BufTy).Contents (Elt F) → (⟨S32x128x11008, .i32⟩ : BufTy).Contents (Elt F)),
    unary main_v21 main_v22 (sitofp .f32 : (⟨S32x128x11008, .i32⟩ : BufTy).Contents (Elt F) → (⟨S32x128x11008, .f32⟩ : BufTy).Contents (Elt F)),
    unary main_arg3 main_v23 (broadcastInDim S32x1x11008 ![0, 2] bcast_S32x11008_S32x1x11008_0_2 : (⟨S32x11008, .f32⟩ : BufTy).Contents (Elt F) → (⟨S32x1x11008, .f32⟩ : BufTy).Contents (Elt F)),
    unary main_v23 main_v24 (broadcastInDim S32x128x11008 ![0, 1, 2] bcast_S32x1x11008_S32x128x11008_0_1_2 : (⟨S32x1x11008, .f32⟩ : BufTy).Contents (Elt F) → (⟨S32x128x11008, .f32⟩ : BufTy).Contents (Elt F)),
    binary main_v22 main_v24 main_v25 (mulf : (⟨S32x128x11008, .f32⟩ : BufTy).Contents (Elt F) → (⟨S32x128x11008, .f32⟩ : BufTy).Contents (Elt F) → (⟨S32x128x11008, .f32⟩ : BufTy).Contents (Elt F)),
    reshape main_v25 main_v26 rfl shapeCasts_S32x128x11008_S4096x11008,
    binary main_arg0 main_v26 main_v27 ((fun l r => Host.dotGeneral dot_S4x2048x4096_S4096x11008_S4x2048x11008_2_0_01_1_n_n none l r) : (⟨S4x2048x4096, .f32⟩ : BufTy).Contents (Elt F) → (⟨S4096x11008, .f32⟩ : BufTy).Contents (Elt F) → (⟨S4x2048x11008, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., unary_bufs_sub .., unary_bufs_sub .., unary_bufs_sub .., binary_bufs_sub .., nullary_bufs_sub .., unary_bufs_sub .., binary_bufs_sub .., reshape_bufs_sub .., unary_bufs_sub .., unary_bufs_sub .., unary_bufs_sub .., unary_bufs_sub .., binary_bufs_sub .., nullary_bufs_sub .., unary_bufs_sub .., binary_bufs_sub .., reshape_bufs_sub .., nullary_bufs_sub .., unary_bufs_sub .., binary_bufs_sub .., reshape_bufs_sub .., unary_bufs_sub .., unary_bufs_sub .., binary_bufs_sub .., unary_bufs_sub .., unary_bufs_sub .., unary_bufs_sub .., binary_bufs_sub .., reshape_bufs_sub .., binary_bufs_sub ..⟩

/-- On every device, for any float values, from any memory with zero counters: every weakly fair execution of
    @main terminates with the result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v27) = refTerm (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v27).trans (by after_results_simp <;> rfl),
      (h c main_arg0).trans (by after_results_simp),
      (h c main_arg1).trans (by after_results_simp),
      (h c main_arg2).trans (by after_results_simp),
      (h c main_arg3).trans (by after_results_simp)⟩)
    (run_seq scopedRefs_eq scopedSems_eq defs main (fun _ => ops) main_eq (fun _ => ops_sub) m ρ)

end Cert.ReferenceIdeal.RefRun

end
-- ==== Proof.RefWeight.lean ====
/-
  The reference's dequantised weight matrix, index by index. Each layout operation of the reference reads one
  element of its operand: the reshape [512, 8, 11008] → [4096, 11008] at (k, o) reads (k / 8, k % 8, o); the
  reshape [32, 1376, 8] → [32, 11008] at (g, o) reads (g, o / 8, o % 8); the reshape
  [4096, 11008] → [32, 128, 11008] and back pairs row k with (k / 128, k % 128); a broadcast reads its operand
  at the coordinates it keeps. The table of shifts holds 4 j at position j, and at 32 bits the host's arithmetic
  right shift is the vector unit's. So the entry (k, o) of the matrix is
  (nibble (k % 8) of packed word (k / 8, o) − (zero point (k / 128, o) + 1)) · scale (k / 128, o).
-/
import proofs.«414776_j49770081026424_3_alg».proof.Proof.RefRun
import proofs.«414776_j49770081026424_3_alg».proof.Proof.Dequant
import Idealize.ShloMosaic.Lib.Pipeline.Value

noncomputable section

namespace Cert.ReferenceIdeal.RefWeight

open Cert.ReferenceIdeal Cert.ReferenceIdeal.Gen Cert.ReferenceIdeal.RefRun Idealize.ShloMosaic Idealize.ShloMosaic.ValueIdx
open Idealize.ShloMosaic.Pipeline

/-- The table of shifts at position j is 4 j. -/
theorem shifts_apply (j : Fin 8) : shifts (ix1 j) = Cert.Dequant.shiftOf j := by
  fin_cases j <;> rfl

/-- The shifts laid along the middle axis of [512, 8, 11008]. -/
theorem shiftsMid_apply (p : Fin 512) (j : Fin 8) (o : Fin 11008) :
    broadcastInDim S512x8x11008 ![0, 1, 2] bcast_S1x8x1_S512x8x11008_0_1_2
      (broadcastInDim S1x8x1 ![1] bcast_S8_S1x8x1_1 shifts) (ix3 p j o) = Cert.Dequant.shiftOf j := by
  refine (broadcastInDim_apply _ _ _ (ix3 p j o) (ix3 (0 : Fin 1) j (0 : Fin 1)) fun a => ?_).trans ?_
  · match a with
    | ⟨0, _⟩ => rfl
    | ⟨1, _⟩ => rfl
    | ⟨2, _⟩ => rfl
  refine (broadcastInDim_apply _ _ _ (ix3 (0 : Fin 1) j (0 : Fin 1)) (ix1 j) fun a => ?_).trans (shifts_apply j)
  match a with
  | ⟨0, _⟩ => rfl

/-- The constant fifteen, broadcast. -/
theorem fifteenW_apply (i : S512x8x11008.Idx) :
    broadcastInDim S512x8x11008 ![] bcast_S_S512x8x11008 (constantI S_ 32 15#32) i = 15#32 := rfl

/-- The packed weights laid along the middle axis of [512, 8, 11008]. -/
theorem packedW_apply (qw : IVec S512x11008 32) (p : Fin 512) (j : Fin 8) (o : Fin 11008) :
    broadcastInDim S512x8x11008 ![0, 1, 2] bcast_S512x1x11008_S512x8x11008_0_1_2
      (broadcastInDim S512x1x11008 ![0, 2] bcast_S512x11008_S512x1x11008_0_2 qw) (ix3 p j o) = qw (ix2 p o) := by
  refine (broadcastInDim_apply _ _ _ (ix3 p j o) (ix3 p (0 : Fin 1) o) fun a => ?_).trans ?_
  · match a with
    | ⟨0, _⟩ => rfl
    | ⟨1, _⟩ => rfl
    | ⟨2, _⟩ => rfl
  refine broadcastInDim_apply _ _ _ (ix3 p (0 : Fin 1) o) (ix2 p o) fun a => ?_
  match a with
  | ⟨0, _⟩ => rfl
  | ⟨1, _⟩ => rfl

/-- The unpacked weights at (k, o): nibble k % 8 of packed word (k / 8, o). -/
theorem nibblesW_apply (qw : IVec S512x11008 32) (k : Fin 4096) (o : Fin 11008) :
    nibblesW qw (ix2 k o) = Cert.Dequant.nibble (qw (ix2 ⟨k.val / 8, by omega⟩ o)) ⟨k.val % 8, by omega⟩ := by
  unfold nibblesW
  refine (shapeCast_apply _ _ (ix2 k o) (ix3 (⟨k.val / 8, by omega⟩ : Fin 512) (⟨k.val % 8, by omega⟩ : Fin 8) o) ?_).trans ?_
  · rw [Shape.rowMajor_val_three, Shape.rowMajor_val_two]
    show (k.val / 8 * 8 + k.val % 8) * 11008 + o.val = k.val * 11008 + o.val
    omega
  show IntOp.andi (IntOp.shrsi .host _ _) _ = _
  rw [packedW_apply, shiftsMid_apply, Cert.Dequant.shrsi_host]
  rfl

/-- The shifts laid along the last axis of [32, 1376, 8]. -/
theorem shiftsLast_apply (g : Fin 32) (q : Fin 1376) (j : Fin 8) :
    broadcastInDim S32x1376x8 ![0, 1, 2] bcast_S1x1x8_S32x1376x8_0_1_2
      (broadcastInDim S1x1x8 ![2] bcast_S8_S1x1x8_2 shifts) (ix3 g q j) = Cert.Dequant.shiftOf j := by
  refine (broadcastInDim_apply _ _ _ (ix3 g q j) (ix3 (0 : Fin 1) (0 : Fin 1) j) fun a => ?_).trans ?_
  · match a with
    | ⟨0, _⟩ => rfl
    | ⟨1, _⟩ => rfl
    | ⟨2, _⟩ => rfl
  refine (broadcastInDim_apply _ _ _ (ix3 (0 : Fin 1) (0 : Fin 1) j) (ix1 j) fun a => ?_).trans (shifts_apply j)
  match a with
  | ⟨0, _⟩ => rfl

/-- The packed zero points laid along the last axis of [32, 1376, 8]. -/
theorem packedZ_apply (qz : IVec S32x1376 32) (g : Fin 32) (q : Fin 1376) (j : Fin 8) :
    broadcastInDim S32x1376x8 ![0, 1, 2] bcast_S32x1376x1_S32x1376x8_0_1_2
      (broadcastInDim S32x1376x1 ![0, 1] bcast_S32x1376_S32x1376x1_0_1 qz) (ix3 g q j) = qz (ix2 g q) := by
  refine (broadcastInDim_apply _ _ _ (ix3 g q j) (ix3 g q (0 : Fin 1)) fun a => ?_).trans ?_
  · match a with
    | ⟨0, _⟩ => rfl
    | ⟨1, _⟩ => rfl
    | ⟨2, _⟩ => rfl
  refine broadcastInDim_apply _ _ _ (ix3 g q (0 : Fin 1)) (ix2 g q) fun a => ?_
  match a with
  | ⟨0, _⟩ => rfl
  | ⟨1, _⟩ => rfl

/-- The zero points plus one at (g, o): nibble o % 8 of packed word (g, o / 8), plus one. -/
theorem zerosPlusOne_apply (qz : IVec S32x1376 32) (g : Fin 32) (o : Fin 11008) :
    zerosPlusOne qz (ix2 g o) = Cert.Dequant.zeroPlusOne qz g o := by
  unfold zerosPlusOne
  show IntOp.addi (shapeCast S32x11008 _ _ (ix2 g o)) 1#32 = _
  refine congrArg (IntOp.addi · 1#32) ?_
  refine (shapeCast_apply _ _ (ix2 g o) (ix3 g (⟨o.val / 8, by omega⟩ : Fin 1376) (⟨o.val % 8, by omega⟩ : Fin 8)) ?_).trans ?_
  · rw [Shape.rowMajor_val_three, Shape.rowMajor_val_two]
    show (g.val * 1376 + o.val / 8) * 8 + o.val % 8 = g.val * 11008 + o.val
    omega
  show IntOp.andi (IntOp.shrsi .host _ _) _ = _
  rw [packedZ_apply, shiftsLast_apply, Cert.Dequant.shrsi_host]
  rfl

/-- A [32, 11008] array laid along the middle axis of [32, 128, 11008]. -/
theorem perGroup_apply {α : Type} (z : S32x11008.Idx → α) (g : Fin 32) (r : Fin 128) (o : Fin 11008) :
    broadcastInDim S32x128x11008 ![0, 1, 2] bcast_S32x1x11008_S32x128x11008_0_1_2
      (broadcastInDim S32x1x11008 ![0, 2] bcast_S32x11008_S32x1x11008_0_2 z) (ix3 g r o) = z (ix2 g o) := by
  refine (broadcastInDim_apply _ _ _ (ix3 g r o) (ix3 g (0 : Fin 1) o) fun a => ?_).trans ?_
  · match a with
    | ⟨0, _⟩ => rfl
    | ⟨1, _⟩ => rfl
    | ⟨2, _⟩ => rfl
  refine broadcastInDim_apply _ _ _ (ix3 g (0 : Fin 1) o) (ix2 g o) fun a => ?_
  match a with
  | ⟨0, _⟩ => rfl
  | ⟨1, _⟩ => rfl

/-- THE REFERENCE'S WEIGHT MATRIX at (k, o) is the dequantised weight of the specification. -/
theorem weightTerm_apply (qw : IVec S512x11008 32) (qz : IVec S32x1376 32) (sc : S32x11008.Idx → EReal)
    (k : Fin 4096) (o : Fin 11008) :
    weightTerm (F := Ideal) qw qz sc (ix2 k o) = Cert.Dequant.weight qw (Cert.Dequant.zeroPlusOneArr qz) sc k o := by
  unfold weightTerm
  refine (shapeCast_apply _ _ (ix2 k o) (ix3 (⟨k.val / 128, by omega⟩ : Fin 32) (⟨k.val % 128, by omega⟩ : Fin 128) o) ?_).trans ?_
  · rw [Shape.rowMajor_val_three, Shape.rowMajor_val_two]
    show (k.val / 128 * 128 + k.val % 128) * 11008 + o.val = k.val * 11008 + o.val
    omega
  rw [mulf_apply, sitofp_apply, perGroup_apply]
  show FloatOps.sitofp (F := Ideal) .f32 (IntOp.subi (shapeCast S32x128x11008 (nibblesW qw) _ _) _) * _ = _
  rw [perGroup_apply, zerosPlusOne_apply]
  rw [shapeCast_apply (nibblesW qw) shapeCasts_S4096x11008_S32x128x11008 _ (ix2 k o) (by
    rw [Shape.rowMajor_val_three, Shape.rowMajor_val_two]
    show k.val * 11008 + o.val = (k.val / 128 * 128 + k.val % 128) * 11008 + o.val
    omega)]
  rw [nibblesW_apply]
  rfl

end Cert.ReferenceIdeal.RefWeight

end
-- ==== Proof.RefValue.lean ====
/-
  The reference's result is the layer's output of the specification. Its last operation contracts axis 2 of the
  activations with axis 0 of the dequantised weight matrix: at the ideal values the element (b, s, o) is the sum
  over the one contracted coordinate k of x[b, s, k] times the matrix at (k, o), and the matrix at (k, o) is the
  specification's dequantised weight. With the run read back, every execution of the reference ends with its
  result buffer at the specification's output of the four argument buffers, the arguments unchanged.
-/
import proofs.«414776_j49770081026424_3_alg».proof.Proof.RefWeight
import Idealize.ShloMosaic.PureOps.Ideal.Laws

noncomputable section

open scoped BigOperators

namespace Cert.ReferenceIdeal.RefValue

open Cert.ReferenceIdeal Idealize.ShloMosaic Idealize.ShloMosaic.TcCoe Idealize.SL.Sem
open Cert.ReferenceIdeal.Gen Cert.ReferenceIdeal.RefRun Cert.ReferenceIdeal.RefWeight Idealize.ShloMosaic.ValueIdx

/-! ## The contraction's operand indices, axis by axis -/

theorem lhs_0 (i : S4x2048x11008.Idx) (q : dot_S4x2048x4096_S4096x11008_S4x2048x11008_2_0_01_1_n_n.contr.Idx) :
    (dot_S4x2048x4096_S4096x11008_S4x2048x11008_2_0_01_1_n_n.lhsIdx i q 0).val = (i 0).val := by
  unfold DotDims.lhsIdx
  rw [dif_neg (show ¬(0 : Fin S4x2048x4096.rank) ∈ dot_S4x2048x4096_S4096x11008_S4x2048x11008_2_0_01_1_n_n.lhsBatch by decide), dif_pos (show (0 : Fin S4x2048x4096.rank) ∈ dot_S4x2048x4096_S4096x11008_S4x2048x11008_2_0_01_1_n_n.lhsNonContracting by decide)]
  rfl

theorem lhs_1 (i : S4x2048x11008.Idx) (q : dot_S4x2048x4096_S4096x11008_S4x2048x11008_2_0_01_1_n_n.contr.Idx) :
    (dot_S4x2048x4096_S4096x11008_S4x2048x11008_2_0_01_1_n_n.lhsIdx i q 1).val = (i 1).val := by
  unfold DotDims.lhsIdx
  rw [dif_neg (show ¬(1 : Fin S4x2048x4096.rank) ∈ dot_S4x2048x4096_S4096x11008_S4x2048x11008_2_0_01_1_n_n.lhsBatch by decide), dif_pos (show (1 : Fin S4x2048x4096.rank) ∈ dot_S4x2048x4096_S4096x11008_S4x2048x11008_2_0_01_1_n_n.lhsNonContracting by decide)]
  rfl

theorem lhs_2 (i : S4x2048x11008.Idx) (q : dot_S4x2048x4096_S4096x11008_S4x2048x11008_2_0_01_1_n_n.contr.Idx) :
    (dot_S4x2048x4096_S4096x11008_S4x2048x11008_2_0_01_1_n_n.lhsIdx i q 2).val = (q ⟨0, by decide⟩).val :=
  dot_S4x2048x4096_S4096x11008_S4x2048x11008_2_0_01_1_n_n.lhsIdx_val_of_single rfl i q

theorem rhs_0 (i : S4x2048x11008.Idx) (q : dot_S4x2048x4096_S4096x11008_S4x2048x11008_2_0_01_1_n_n.contr.Idx) :
    (dot_S4x2048x4096_S4096x11008_S4x2048x11008_2_0_01_1_n_n.rhsIdx i q 0).val = (q ⟨0, by decide⟩).val :=
  dot_S4x2048x4096_S4096x11008_S4x2048x11008_2_0_01_1_n_n.rhsIdx_val_of_single rfl i q

theorem rhs_1 (i : S4x2048x11008.Idx) (q : dot_S4x2048x4096_S4096x11008_S4x2048x11008_2_0_01_1_n_n.contr.Idx) :
    (dot_S4x2048x4096_S4096x11008_S4x2048x11008_2_0_01_1_n_n.rhsIdx i q 1).val = (i 2).val := by
  unfold DotDims.rhsIdx
  rw [dif_neg (show ¬(1 : Fin S4096x11008.rank) ∈ dot_S4x2048x4096_S4096x11008_S4x2048x11008_2_0_01_1_n_n.rhsBatch by decide), dif_pos (show (1 : Fin S4096x11008.rank) ∈ dot_S4x2048x4096_S4096x11008_S4x2048x11008_2_0_01_1_n_n.rhsNonContracting by decide)]
  rfl

/-! ## The result, index by index -/

/-- The contraction at (b, s, o): the sum over the 4096 input features. -/
theorem refTerm_apply (x : S4x2048x4096.Idx → EReal) (qw : IVec S512x11008 32) (qz : IVec S32x1376 32)
    (sc : S32x11008.Idx → EReal) (b : Fin 4) (s : Fin 2048) (o : Fin 11008) :
    refTerm (F := Ideal) x qw qz sc (ix3 b s o)
      = ∑ k : Fin 4096, x (ix3 b s k) * weightTerm (F := Ideal) qw qz sc (ix2 k o) := by
  unfold refTerm
  generalize weightTerm (F := Ideal) qw qz sc = W
  simp only [Host.dotGeneral]
  rw [Ideal.dotGeneral_apply, ← Equiv.sum_comp (contrEquiv1 dot_S4x2048x4096_S4096x11008_S4x2048x11008_2_0_01_1_n_n 4096 rfl rfl).symm]
  refine Finset.sum_congr rfl fun k _ => ?_
  have hk := contrEquiv1_symm_val dot_S4x2048x4096_S4096x11008_S4x2048x11008_2_0_01_1_n_n 4096 rfl rfl k
  have el : dot_S4x2048x4096_S4096x11008_S4x2048x11008_2_0_01_1_n_n.lhsIdx (ix3 b s o) ((contrEquiv1 dot_S4x2048x4096_S4096x11008_S4x2048x11008_2_0_01_1_n_n 4096 rfl rfl).symm k) = ix3 b s k := funext fun a => Fin.ext (by
    match a with
    | ⟨0, _⟩ => exact lhs_0 _ _
    | ⟨1, _⟩ => exact lhs_1 _ _
    | ⟨2, _⟩ => exact (lhs_2 _ _).trans hk)
  have er : dot_S4x2048x4096_S4096x11008_S4x2048x11008_2_0_01_1_n_n.rhsIdx (ix3 b s o) ((contrEquiv1 dot_S4x2048x4096_S4096x11008_S4x2048x11008_2_0_01_1_n_n 4096 rfl rfl).symm k) = ix2 k o := funext fun a => Fin.ext (by
    match a with
    | ⟨0, _⟩ => exact (rhs_0 _ _).trans hk
    | ⟨1, _⟩ => exact rhs_1 _ _)
  rw [el, er]

/-- THE REFERENCE'S RESULT is the specification's output of the four arguments. -/
theorem refTerm_eq (x : S4x2048x4096.Idx → EReal) (qw : IVec S512x11008 32) (qz : IVec S32x1376 32)
    (sc : S32x11008.Idx → EReal) :
    refTerm (F := Ideal) x qw qz sc = Cert.Dequant.output x qw qz sc := by
  funext i
  obtain ⟨b, s, o, rfl⟩ : ∃ b s o, i = ix3 b s o := ⟨i 0, i 1, i 2, eq_ix3 i⟩
  rw [refTerm_apply]
  unfold Cert.Dequant.output
  refine Finset.sum_congr rfl fun k _ => ?_
  rw [weightTerm_apply]

/-! ## The run -/

/-- On every device, from any memory with zero counters: every weakly fair execution of the reference terminates
    with its result buffer at the specification's output of the four argument buffers, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v27) = Cert.Dequant.output (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run (defs (F := Ideal)) _ _).mono (fun _ h c => ⟨(h c).1.trans (refTerm_eq _ _ _ _), (h c).2⟩)
    (RefRun.run (F := Ideal) m ρ)

end Cert.ReferenceIdeal.RefValue

end
-- ==== Proof.lean ====
/-
  A 4-bit quantised linear layer: the kernel program against its reference, over the extended reals.

  Both programs compute, at (b, s, o), the sum over the 4096 input features `k` of `x[b, s, k]` times the
  dequantised weight `(nibble − (zero + 1)) · scale` at (k, o) (Proof/Dequant.lean, `Cert.Dequant.output`). The
  kernel takes the sum in four chunks of 1024 features accumulated from zero, tile by tile over a 4 × 43 grid,
  with the zero points unpacked on the host beforehand; the reference dequantises the whole matrix on the host
  and contracts once. Addition on the extended reals is commutative and associative, so the two groupings agree;
  nothing else distinguishes the two sides (a change of float format is the identity there, the integer
  operations are the same words). The kernel program's run is read in Proof/KernelResult.lean, the reference's in
  Proof/RefValue.lean; here the claims are assembled. The idealization rewrote no operation, so nothing is owed
  for it.
-/
import proofs.«414776_j49770081026424_3_alg».proof.Defs
import proofs.«414776_j49770081026424_3_alg».proof.Proof.Gen.Kernel
import proofs.«414776_j49770081026424_3_alg».proof.Proof.Gen.Kernel.Skeleton
import proofs.«414776_j49770081026424_3_alg».proof.Proof.Gen.Kernel.Launch
import proofs.«414776_j49770081026424_3_alg».proof.Proof.Gen.Kernel.Points
import proofs.«414776_j49770081026424_3_alg».proof.Proof.Gen.Kernel.Frame
import proofs.«414776_j49770081026424_3_alg».proof.Proof.Gen.KernelIdeal
import proofs.«414776_j49770081026424_3_alg».proof.Proof.Gen.KernelIdeal.Skeleton
import proofs.«414776_j49770081026424_3_alg».proof.Proof.Gen.KernelIdeal.Launch
import proofs.«414776_j49770081026424_3_alg».proof.Proof.Gen.KernelIdeal.Points
import proofs.«414776_j49770081026424_3_alg».proof.Proof.Gen.KernelIdeal.Frame
import proofs.«414776_j49770081026424_3_alg».proof.Proof.Gen.ReferenceIdeal
import proofs.«414776_j49770081026424_3_alg».proof.Proof.Gen.Pre_finite_inputs
import proofs.«414776_j49770081026424_3_alg».proof.Proof.KernelResult
import proofs.«414776_j49770081026424_3_alg».proof.Proof.RefValue
import Idealize.ShloMosaic.Adequacy
import Idealize.ShloMosaic.Init

noncomputable section

namespace Cert.Proof

open Idealize.ShloMosaic Idealize.SL.Sem

/-- The kernel program as printed runs, its arguments unchanged. -/
theorem frame_kernel : Cert.frame_Kernel (hKernel := Cert.Kernel.Gen.facts) (hPre_finite_inputs := Cert.Pre_finite_inputs.Gen.facts) :=
  fun m ρ _ => Cert.Kernel.Gen.frame m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs, its arguments unchanged: its run read back, the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefValue.run m ρ)

/-- From memories agreeing on the arguments both programs end at the layer's output of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.ResultValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
